-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512x20 : Shape := ⟨3, ![4096, 512, 20]⟩
abbrev S10000 : Shape := ⟨1, ![10000]⟩
abbrev S4096x512x10 : Shape := ⟨3, ![4096, 512, 10]⟩
abbrev S_ : Shape := ⟨0, ![]⟩

class Facts : Prop where
  bcast_S_S4096x512x20 : S_.BroadcastsInDim S4096x512x20 (![] : Fin 0 → Fin S4096x512x20.rank)
  reducesTo_S4096x512x20_S_d0_1_2 : S4096x512x20.ReducesTo [0, 1, 2] S_
  h_S_ : 0 < S_.numel
  bcast_S_S10000 : S_.BroadcastsInDim S10000 (![] : Fin 0 → Fin S10000.rank)
  reducesTo_S10000_S_d0 : S10000.ReducesTo [0] S_
  bcast_S_S4096x512x10 : S_.BroadcastsInDim S4096x512x10 (![] : Fin 0 → Fin S4096x512x10.rank)
  reducesTo_S4096x512x10_S_d0_1_2 : S4096x512x10.ReducesTo [0, 1, 2] S_

variable [Facts]

def fn_part1 {F : FTy → Type} [FloatOps F] (main_arg3 : IVec S4096x512x10 32) (main_v15 : IVec S_ 1) (main_c_5 : IVec S_ 32) : IVec S_ 1 :=
  let main_v16 : IVec S4096x512x10 32 := broadcastInDim S4096x512x10 ![] bcast_S_S4096x512x10 main_c_5
  let main_v17 : IVec S4096x512x10 1 := cmpi .sge main_arg3 main_v16
  let main_c_6 : IVec S_ 32 := constantI S_ 32 10000#32
  let main_v18 : IVec S4096x512x10 32 := broadcastInDim S4096x512x10 ![] bcast_S_S4096x512x10 main_c_6
  let main_v19 : IVec S4096x512x10 1 := cmpi .slt main_arg3 main_v18
  let main_v20 : IVec S4096x512x10 1 := andi main_v17 main_v19
  let main_c_7 : IVec S_ 1 := constantI S_ 1 1#1
  let main_v21 : IVec S_ 1 := (fun x v => Host.reduce IntOp.andi x v reducesTo_S4096x512x10_S_d0_1_2 h_S_) main_v20 main_c_7
  let main_v22 : IVec S_ 1 := andi main_v15 main_v21
  main_v22

def fn {F : FTy → Type} [FloatOps F] (main_arg0 : FVec F S4096x512x20 .f32) (main_arg1 : FVec F S10000 .f32) (main_arg2 : IVec S4096x512x10 32) (main_arg3 : IVec S4096x512x10 32) : IVec S_ 1 :=
  let main_v0 : FVec F S4096x512x20 .f32 := Host.absf main_arg0
  let main_cst : FVec F S_ .f32 := constant S_ .f32 0x7F800000#32
  let main_v1 : FVec F S4096x512x20 .f32 := broadcastInDim S4096x512x20 ![] bcast_S_S4096x512x20 main_cst
  let main_v2 : IVec S4096x512x20 1 := cmpf .olt main_v0 main_v1
  let main_c : IVec S_ 1 := constantI S_ 1 1#1
  let main_v3 : IVec S_ 1 := (fun x v => Host.reduce IntOp.andi x v reducesTo_S4096x512x20_S_d0_1_2 h_S_) main_v2 main_c
  let main_v4 : FVec F S10000 .f32 := Host.absf main_arg1
  let main_cst_0 : FVec F S_ .f32 := constant S_ .f32 0x7F800000#32
  let main_v5 : FVec F S10000 .f32 := broadcastInDim S10000 ![] bcast_S_S10000 main_cst_0
  let main_v6 : IVec S10000 1 := cmpf .olt main_v4 main_v5
  let main_c_1 : IVec S_ 1 := constantI S_ 1 1#1
  let main_v7 : IVec S_ 1 := (fun x v => Host.reduce IntOp.andi x v reducesTo_S10000_S_d0 h_S_) main_v6 main_c_1
  let main_v8 : IVec S_ 1 := andi main_v3 main_v7
  let main_c_2 : IVec S_ 32 := constantI S_ 32 0#32
  let main_v9 : IVec S4096x512x10 32 := broadcastInDim S4096x512x10 ![] bcast_S_S4096x512x10 main_c_2
  let main_v10 : IVec S4096x512x10 1 := cmpi .sge main_arg2 main_v9
  let main_c_3 : IVec S_ 32 := constantI S_ 32 10000#32
  let main_v11 : IVec S4096x512x10 32 := broadcastInDim S4096x512x10 ![] bcast_S_S4096x512x10 main_c_3
  let main_v12 : IVec S4096x512x10 1 := cmpi .slt main_arg2 main_v11
  let main_v13 : IVec S4096x512x10 1 := andi main_v10 main_v12
  let main_c_4 : IVec S_ 1 := constantI S_ 1 1#1
  let main_v14 : IVec S_ 1 := (fun x v => Host.reduce IntOp.andi x v reducesTo_S4096x512x10_S_d0_1_2 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S4096x512x20 : Shape := ⟨3, ![4096, 512, 20]⟩
abbrev S10000 : Shape := ⟨1, ![10000]⟩
abbrev S4096x512x10 : Shape := ⟨3, ![4096, 512, 10]⟩
abbrev S1x512x10 : Shape := ⟨3, ![1, 512, 10]⟩
abbrev S1x512x20 : Shape := ⟨3, ![1, 512, 20]⟩
abbrev S10240 : Shape := ⟨1, ![10240]⟩
abbrev S4096 : Shape := ⟨1, ![4096]⟩
abbrev S_ : Shape := ⟨0, ![]⟩
abbrev S4096x10240 : Shape := ⟨2, ![4096, 10240]⟩
abbrev S4096x1 : Shape := ⟨2, ![4096, 1]⟩
abbrev S1x10240 : Shape := ⟨2, ![1, 10240]⟩
abbrev S256x10240 : Shape := ⟨2, ![256, 10240]⟩
abbrev S256x1 : Shape := ⟨2, ![256, 1]⟩
abbrev S256x2048 : Shape := ⟨2, ![256, 2048]⟩
abbrev S1x2048 : Shape := ⟨2, ![1, 2048]⟩
abbrev S256 : Shape := ⟨1, ![256]⟩

abbrev nBuf : Space → Nat
  | .hbm => 34
  | .vmem => 7
  | .smem => 0
  | _ => 0

abbrev bufTy : (tb : Table) → Fin (tcTables nBuf tb) → BufTy
  | .hbm, ⟨0, _⟩ => ⟨S4096x512x20, .f32⟩
  | .hbm, ⟨1, _⟩ => ⟨S10000, .f32⟩
  | .hbm, ⟨2, _⟩ => ⟨S4096x512x10, .i32⟩
  | .hbm, ⟨3, _⟩ => ⟨S4096x512x10, .i32⟩
  | .hbm, ⟨4, _⟩ => ⟨S1x512x10, .i32⟩
  | .hbm, ⟨5, _⟩ => ⟨S1x512x10, .i32⟩
  | .hbm, ⟨6, _⟩ => ⟨S1x512x20, .i32⟩
  | .hbm, ⟨7, _⟩ => ⟨S10240, .i32⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S4096x10240, .f32⟩
  | .hbm, ⟨18, _⟩ => ⟨S4096x1, .i32⟩
  | .hbm, ⟨19, _⟩ => ⟨S10240, .i32⟩
  | .hbm, ⟨20, _⟩ => ⟨S1x10240, .i32⟩
  | .hbm, ⟨21, _⟩ => ⟨S4096x1, .f32⟩
  | .hbm, ⟨22, _⟩ => ⟨S4096, .f32⟩
  | .hbm, ⟨23, _⟩ => ⟨S_, .i32⟩
  | .hbm, ⟨24, _⟩ => ⟨S4096, .i32⟩
  | .hbm, ⟨25, _⟩ => ⟨S4096, .i1⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096x1, .i32⟩
  | .hbm, ⟨31, _⟩ => ⟨S4096, .f32⟩
  | .hbm, ⟨32, _⟩ => ⟨S4096, .f32⟩
  | .hbm, ⟨33, _⟩ => ⟨S4096, .f32⟩
  | .local _ .vmem, ⟨0, _⟩ => ⟨S256x10240, .f32⟩
  | .local _ .vmem, ⟨1, _⟩ => ⟨S256x10240, .f32⟩
  | .local _ .vmem, ⟨2, _⟩ => ⟨S256x1, .i32⟩
  | .local _ .vmem, ⟨3, _⟩ => ⟨S256x1, .i32⟩
  | .local _ .vmem, ⟨4, _⟩ => ⟨S1x10240, .i32⟩
  | .local _ .vmem, ⟨5, _⟩ => ⟨S256x1, .f32⟩
  | .local _ .vmem, ⟨6, _⟩ => ⟨S256x1, .f32⟩
  | _, _ => ⟨S4096x512x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x10240 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x10240 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4096x512x10_S1x512x10_0_0_0 : S4096x512x10.Slices ![0, 0, 0] S1x512x10
  concatenates_S1x512x10_S1x512x10_S1x512x20_d2 : Shape.Concatenates [S1x512x10, S1x512x10] S1x512x20 2
  shapeCasts_S1x512x20_S10240 : S1x512x20.ShapeCasts S10240
  slices_S10240_S4096_0 : S10240.Slices ![0] S4096
  bcast_S_S4096 : S_.BroadcastsInDim S4096 (![] : Fin 0 → Fin S4096.rank)
  shapeCasts_S4096x512x20_S4096x10240 : S4096x512x20.ShapeCasts S4096x10240
  shapeCasts_S4096_S4096x1 : S4096.ShapeCasts S4096x1
  shapeCasts_S10240_S1x10240 : S10240.ShapeCasts S1x10240
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x10240_S256x2048_0_0 : ∀ a, (![0, 0] : Fin 2 → Nat) a + S256x2048.size a ≤ S256x10240.size a
  h_S256x2048 : 0 < S256x2048.numel
  shapeCasts_S256x2048_S256x2048 : S256x2048.ShapeCasts S256x2048
  inb_S1x10240_S1x2048_0_0 : ∀ a, (![0, 0] : Fin 2 → Nat) a + S1x2048.size a ≤ S1x10240.size a
  h_S1x2048 : 0 < S1x2048.numel
  shapeCasts_S1x2048_S1x2048 : S1x2048.ShapeCasts S1x2048
  broadcasts_S1x2048_S256x2048 : S1x2048.Broadcasts S256x2048
  broadcasts_S256x1_S256x2048 : S256x1.Broadcasts S256x2048
  reduces_S256x2048_S256 : S256x2048.Reduces [1] S256
  shapeCasts_S256_S256x1 : S256.ShapeCasts S256x1
  inb_S256x10240_S256x2048_0_2048 : ∀ a, (![0, 2048] : Fin 2 → Nat) a + S256x2048.size a ≤ S256x10240.size a
  inb_S1x10240_S1x2048_0_2048 : ∀ a, (![0, 2048] : Fin 2 → Nat) a + S1x2048.size a ≤ S1x10240.size a
  inb_S256x10240_S256x2048_0_4096 : ∀ a, (![0, 4096] : Fin 2 → Nat) a + S256x2048.size a ≤ S256x10240.size a
  inb_S1x10240_S1x2048_0_4096 : ∀ a, (![0, 4096] : Fin 2 → Nat) a + S1x2048.size a ≤ S1x10240.size a
  inb_S256x10240_S256x2048_0_6144 : ∀ a, (![0, 6144] : Fin 2 → Nat) a + S256x2048.size a ≤ S256x10240.size a
  inb_S1x10240_S1x2048_0_6144 : ∀ a, (![0, 6144] : Fin 2 → Nat) a + S1x2048.size a ≤ S1x10240.size a
  inb_S256x10240_S256x2048_0_8192 : ∀ a, (![0, 8192] : Fin 2 → Nat) a + S256x2048.size a ≤ S256x10240.size a
  inb_S1x10240_S1x2048_0_8192 : ∀ a, (![0, 8192] : Fin 2 → Nat) a + S1x2048.size a ≤ S1x10240.size a
  shapeCasts_S4096x1_S4096 : S4096x1.ShapeCasts S4096
  bcast_S4096_S4096x1_0 : S4096.BroadcastsInDim S4096x1 (![0] : Fin 1 → Fin S4096x1.rank)
  gather_S10000_S4096x1_S4096_n_0_n_n_0_1_1_wf : GatherDims.WF S10000 S4096x1 S4096 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x10240.size a ≤ S4096x10240.size a
  hwx0_0 : ∀ i : grid0.Coords, EltTy.bits .f32 = 32 ∨ (Rect.block (s := S4096x10240) S256x10240.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .i32 = 32 ∨ (Rect.block (s := S4096x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10240.size a ≤ S1x10240.size a
  hwx0_2 : ∀ i : grid0.Coords, EltTy.bits .i32 = 32 ∨ (Rect.block (s := S1x10240) S1x10240.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)

variable [Facts₀]

def gather_S10000_S4096x1_S4096_n_0_n_n_0_1_1 : GatherDims S10000 S4096x1 S4096 where
  offsetDims := []
  collapsedSliceDims := [0]
  operandBatchingDims := []
  startIndicesBatchingDims := []
  startIndexMap := [0]
  indexVectorDim := 1
  sliceSizes := ![1]
  wf := gather_S10000_S4096x1_S4096_n_0_n_n_0_1_1_wf

abbrev win0_0 : Pipeline.Window sig grid0 :=
  Pipeline.Window.ofSpec (Memref.whole main_v6) S256x10240.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x10240.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512x20 : Shape := ⟨3, ![4096, 512, 20]⟩
abbrev S10000 : Shape := ⟨1, ![10000]⟩
abbrev S4096x512x10 : Shape := ⟨3, ![4096, 512, 10]⟩
abbrev S_ : Shape := ⟨0, ![]⟩
abbrev S4096x10240 : Shape := ⟨2, ![4096, 10240]⟩
abbrev S41943040 : Shape := ⟨1, ![41943040]⟩
abbrev S4096 : Shape := ⟨1, ![4096]⟩
abbrev S4096x1 : Shape := ⟨2, ![4096, 1]⟩
abbrev S4096x2 : Shape := ⟨2, ![4096, 2]⟩

abbrev nBuf : Space → Nat
  | .hbm => 54
  | .vmem => 0
  | .smem => 0
  | _ => 0

abbrev bufTy : (tb : Table) → Fin (tcTables nBuf tb) → BufTy
  | .hbm, ⟨0, _⟩ => ⟨S4096x512x20, .f32⟩
  | .hbm, ⟨1, _⟩ => ⟨S10000, .f32⟩
  | .hbm, ⟨2, _⟩ => ⟨S4096x512x10, .i32⟩
  | .hbm, ⟨3, _⟩ => ⟨S4096x512x10, .i32⟩
  | .hbm, ⟨4, _⟩ => ⟨S4096x512x20, .f32⟩
  | .hbm, ⟨5, _⟩ => ⟨S_, .f32⟩
  | .hbm, ⟨6, _⟩ => ⟨S4096x512x20, .f32⟩
  | .hbm, ⟨7, _⟩ => ⟨S4096x512x20, .f32⟩
  | .hbm, ⟨8, _⟩ => ⟨S4096x512x20, .f32⟩
  | .hbm, ⟨9, _⟩ => ⟨S4096x512x20, .f32⟩
  | .hbm, ⟨10, _⟩ => ⟨S4096x512x20, .i1⟩
  | .hbm, ⟨11, _⟩ => ⟨S4096x512x20, .f32⟩
  | .hbm, ⟨12, _⟩ => ⟨S4096x512x20, .f32⟩
  | .hbm, ⟨13, _⟩ => ⟨S4096x512x20, .f32⟩
  | .hbm, ⟨14, _⟩ => ⟨S4096x512x20, .f32⟩
  | .hbm, ⟨15, _⟩ => ⟨S4096x512x20, .f32⟩
  | .hbm, ⟨16, _⟩ => ⟨S4096x512x20, .f32⟩
  | .hbm, ⟨17, _⟩ => ⟨S4096x512x20, .f32⟩
  | .hbm, ⟨18, _⟩ => ⟨S4096x512x20, .f32⟩
  | .hbm, ⟨19, _⟩ => ⟨S4096x512x20, .f32⟩
  | .hbm, ⟨20, _⟩ => ⟨S4096x10240, .f32⟩
  | .hbm, ⟨21, _⟩ => ⟨S4096x512x20, .i32⟩
  | .hbm, ⟨22, _⟩ => ⟨S41943040, .i32⟩
  | .hbm, ⟨23, _⟩ => ⟨S4096, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S4096, .i32⟩
  | .hbm, ⟨39, _⟩ => ⟨S4096x1, .i32⟩
  | .hbm, ⟨40, _⟩ => ⟨S4096x1, .i32⟩
  | .hbm, ⟨41, _⟩ => ⟨S4096x2, .i32⟩
  | .hbm, ⟨42, _⟩ => ⟨S4096, .f32⟩
  | .hbm, ⟨43, _⟩ => ⟨S_, .i32⟩
  | .hbm, ⟨44, _⟩ => ⟨S4096, .i32⟩
  | .hbm, ⟨45, _⟩ => ⟨S4096, .i1⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S4096x1, .i32⟩
  | .hbm, ⟨51, _⟩ => ⟨S4096, .f32⟩
  | .hbm, ⟨52, _⟩ => ⟨S4096, .f32⟩
  | .hbm, ⟨53, _⟩ => ⟨S4096, .f32⟩
  | _, _ => ⟨S4096x512x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩

abbrev nD : Nat := 1
abbrev τ : Topo := Topo.v7x

variable {F : FTy → Type} [FloatOps F]

class Facts₀ : Prop where
  bcast_S_S4096x512x20 : S_.BroadcastsInDim S4096x512x20 (![] : Fin 0 → Fin S4096x512x20.rank)
  shapeCasts_S4096x512x20_S4096x10240 : S4096x512x20.ShapeCasts S4096x10240
  concatenates_S4096x512x10_S4096x512x10_S4096x512x20_d2 : Shape.Concatenates [S4096x512x10, S4096x512x10] S4096x512x20 2
  shapeCasts_S4096x512x20_S41943040 : S4096x512x20.ShapeCasts S41943040
  slices_S41943040_S4096_0 : S41943040.Slices ![0] S4096
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  gather_S4096x10240_S4096x2_S4096_n_01_n_n_01_1_11_wf : GatherDims.WF S4096x10240 S4096x2 S4096 [] [0, 1] [] [0, 1] [] 1 ![1, 1]
  gather_S10000_S4096x1_S4096_n_0_n_n_0_1_1_wf : GatherDims.WF S10000 S4096x1 S4096 [] [0] [] [0] [] 1 ![1]

variable [Facts₀]

def gather_S4096x10240_S4096x2_S4096_n_01_n_n_01_1_11 : GatherDims S4096x10240 S4096x2 S4096 where
  offsetDims := []
  collapsedSliceDims := [0, 1]
  operandBatchingDims := []
  startIndicesBatchingDims := []
  startIndexMap := [0, 1]
  indexVectorDim := 1
  sliceSizes := ![1, 1]
  wf := gather_S4096x10240_S4096x2_S4096_n_01_n_n_01_1_11_wf
def gather_S10000_S4096x1_S4096_n_0_n_n_0_1_1 : GatherDims S10000 S4096x1 S4096 where
  offsetDims := []
  collapsedSliceDims := [0]
  operandBatchingDims := []
  startIndicesBatchingDims := []
  startIndexMap := [0]
  indexVectorDim := 1
  sliceSizes := ![1]
  wf := gather_S10000_S4096x1_S4096_n_0_n_n_0_1_1_wf

class Facts : Prop extends Facts₀ where

variable [Facts]
-- ==== Proof.KerTerm.lean ====
/-
  The kernel program's result as ONE term of its argument arrays and of the array its one launch writes.

  Around the launch the program computes on the host: the target vector `t` (the first 4096 entries of the
  row-major flattening of the concatenation, along the last axis, of the first batch of the two target arrays),
  its clamp into `[0, 10239]` as a column (the launch's second operand), the logits as a 4096 × 10240 matrix (the
  first operand), the column indices `0 … 10239` as a row (the third); and after the launch the product of the
  launch's column, read as a vector, with minus the weight table at the (wrapped, then clamped) target.
-/
import proofs.«402227_j94489281195_3_alg».proof.Proof.Gen.KernelIdeal

noncomputable section

namespace Cert.KernelIdeal.KerValue

open Cert.KernelIdeal Cert.KernelIdeal.Gen Idealize.ShloMosaic

variable {F : FTy → Type} [FloatOps F]

/-- The target vector: the first 4096 entries of the flattened concatenation of the two arrays' first batches. -/
def idxK (pos neg : IVec S4096x512x10 32) : IVec S4096 32 :=
  extractStridedSlice S4096 ![0]
    (shapeCast S10240
      (concatenate S1x512x20 2
        [⟨S1x512x10, extractStridedSlice S1x512x10 ![0, 0, 0] pos slices_S4096x512x10_S1x512x10_0_0_0⟩,
         ⟨S1x512x10, extractStridedSlice S1x512x10 ![0, 0, 0] neg slices_S4096x512x10_S1x512x10_0_0_0⟩]
        concatenates_S1x512x10_S1x512x10_S1x512x20_d2)
      shapeCasts_S1x512x20_S10240)
    slices_S10240_S4096_0

/-- The clamp of every target into `[0, 10239]`: `min 10239 (max 0 t)`, signed. -/
def clipK (idx : IVec S4096 32) : IVec S4096 32 :=
  minsi (broadcastInDim S4096 ![] bcast_S_S4096 (id (constantI S_ 32 10239#32)))
    (maxsi (broadcastInDim S4096 ![] bcast_S_S4096 (id (constantI S_ 32 0#32))) idx)

/-- jnp's reading of a negative index along the weight table's axis: 10000 is added to it. -/
def wrapK (idx : IVec S4096 32) : IVec S4096 32 :=
  select (cmpi .slt idx (broadcastInDim S4096 ![] bcast_S_S4096 (constantI S_ 32 0#32)))
    (addi idx (broadcastInDim S4096 ![] bcast_S_S4096 (constantI S_ 32 10000#32))) idx

/-- The weight factor: minus the weight table at the (wrapped, then clamped) target. -/
def weightK (cw : FVec F S10000 .f32) (idx : IVec S4096 32) : FVec F S4096 .f32 :=
  Host.negf (Host.gather gather_S10000_S4096x1_S4096_n_0_n_n_0_1_1 cw
    (broadcastInDim S4096x1 ![0] bcast_S4096_S4096x1_0 (wrapK idx)))

/-- The program's result from the weight table, the target vector and the column `d` the launch leaves. -/
def kerOut (cw : FVec F S10000 .f32) (idx : IVec S4096 32) (d : FVec F S4096x1 .f32) : FVec F S4096 .f32 :=
  mulf (weightK cw idx) (shapeCast S4096 d shapeCasts_S4096x1_S4096)

end Cert.KernelIdeal.KerValue

end
-- ==== Proof.KerRun.lean ====
/-
  The kernel program's run, read: what the launch's three operand arrays hold when the launch starts, and the
  program's result from the array the launch leaves.
-/
import proofs.«402227_j94489281195_3_alg».proof.Proof.Gen.KernelIdeal.Frame
import proofs.«402227_j94489281195_3_alg».proof.Proof.KerTerm
import Idealize.ShloMosaic.Lib.StableHlo.Run

set_option maxRecDepth 16384

noncomputable section

namespace Cert.KernelIdeal.KerValue

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- The target vector as the launch finds it. -/
theorem V_v4 (c : Dev nD) : (V m c main_v4 : IVec S4096 32)
    = idxK (m ((c : Thread nD τ).loc main_arg2)) (m ((c : Thread nD τ).loc main_arg3)) := by
  dsimp only [Gen.V, Gen.V0]
  simp only [Gen.hostOps0, Gen.hostOps0_1, Gen.hostOps0_2, List.flatten_cons, List.flatten_nil, List.append_nil, List.cons_append, List.nil_append]
  after_results
  rfl

/-- The launch's first operand: the logits as a 4096 × 10240 matrix. -/
theorem V_v6 (c : Dev nD) : (V m c main_v6 : FVec F S4096x10240 .f32)
    = shapeCast S4096x10240 (m ((c : Thread nD τ).loc main_arg0)) shapeCasts_S4096x512x20_S4096x10240 := by
  dsimp only [Gen.V, Gen.V0]
  simp only [Gen.hostOps0, Gen.hostOps0_1, Gen.hostOps0_2, List.flatten_cons, List.flatten_nil, List.append_nil, List.cons_append, List.nil_append]
  after_results
  rfl

/-- Its second operand: the clamped targets as a column. -/
theorem V_v7 (c : Dev nD) : (V m c main_v7 : IVec S4096x1 32)
    = shapeCast S4096x1 (clipK (idxK (m ((c : Thread nD τ).loc main_arg2)) (m ((c : Thread nD τ).loc main_arg3)))) shapeCasts_S4096_S4096x1 := by
  dsimp only [Gen.V, Gen.V0]
  simp only [Gen.hostOps0, Gen.hostOps0_1, Gen.hostOps0_2, List.flatten_cons, List.flatten_nil, List.append_nil, List.cons_append, List.nil_append]
  after_results
  rfl

/-- Its third operand: the column indices as a row. -/
theorem V_v9 (c : Dev nD) : (V m c main_v9 : IVec S1x10240 32)
    = shapeCast S1x10240 (iotaInDim S10240 32 0) shapeCasts_S10240_S1x10240 := by
  dsimp only [Gen.V, Gen.V0]
  simp only [Gen.hostOps0, Gen.hostOps0_1, Gen.hostOps0_2, List.flatten_cons, List.flatten_nil, List.append_nil, List.cons_append, List.nil_append]
  after_results
  rfl

/-- After the launch the launch's fourth array holds what the run's proof data say it holds. -/
theorem tail_arr (c : Dev nD) :
    Pipeline.withArrays (cfgs 0).spec c (V0 m c) (fun w => (dats m 0 c).arrAt w (cfgs 0).N) (Proc.devRef .tc main_v10)
      = (dats m 0 c).arrAt 3 cfg0.N :=
  Pipeline.withArrays_arr (cfgs 0).spec launch0.win.arr_inj c (V0 m c) (fun w => (dats m 0 c).arrAt w (cfgs 0).N) 3

/-- THE PROGRAM'S RESULT after the lines that follow the launch: the product of the weight factor with the launch's
    column read as a vector. -/
theorem tail_v20_of (c : Dev nD) (cw : FVec F S10000 .f32) (idx : IVec S4096 32)
    (hcw : (V m c main_arg1 : FVec F S10000 .f32) = cw) (hidx : (V m c main_v4 : IVec S4096 32) = idx) :
    Pipeline.afterTail₀ cfgs (dats m) 0 (V0 m) [hostOps1] c main_v20
      = kerOut cw idx ((dats m 0 c).arrAt 3 cfg0.N) := by
  subst hcw hidx
  unfold Pipeline.afterTail₀
  show StableHlo.after hostOps1 _ (Proc.devRef .tc main_v20) = _
  after_results
  rw [Pipeline.withArrays_of_ne _ c (V0 m c) _ main_arg1 (by exact (by decide : ∀ w, Pipeline.arrRef spec0 w ≠ main_arg1)),
    Pipeline.withArrays_of_ne _ c (V0 m c) _ main_v4 (by exact (by decide : ∀ w, Pipeline.arrRef spec0 w ≠ main_v4)),
    tail_arr m c]
  rfl

theorem tail_v20 (c : Dev nD) :
    Pipeline.afterTail₀ cfgs (dats m) 0 (V0 m) [hostOps1] c main_v20
      = kerOut (m ((c : Thread nD τ).loc main_arg1))
          (idxK (m ((c : Thread nD τ).loc main_arg2)) (m ((c : Thread nD τ).loc main_arg3)))
          ((dats m 0 c).arrAt 3 cfg0.N) :=
  tail_v20_of m c _ _ (V_main_arg1 m c) (V_v4 m c)

/-- THE RUN, READ: every weakly fair execution of the kernel program terminates with its result at `kerOut` of the
    arguments and of the array the launch leaves, the arguments unchanged. -/
theorem run : θ_run defs (onTc (τ := τ) (main (F := F))) ⟨m, fun _ => 0, ρ⟩ fun r => ∀ c : Dev nD,
      r.2.mem ((c.tc : Thread nD τ).loc main_v20)
        = kerOut (m ((c.tc : Thread nD τ).loc main_arg1))
            (idxK (m ((c.tc : Thread nD τ).loc main_arg2)) (m ((c.tc : Thread nD τ).loc main_arg3)))
            ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v20 (Pipeline.mem_restRefs_of main_v20 (by decide) (by decide))).trans (tail_v20 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KerValue

end
-- ==== Proof.RefTerm.lean ====
/-
  The reference's result as ONE term of its four argument arrays.

  The reference computes, for every row `i < 4096`,
      out i = -(w[t i]) * logsig(x[i, t i])
  where `x` is the logits array seen as a 4096 × 10240 matrix, `t` is the vector of the first 4096 entries of the
  row-major flattening of the targets' concatenation along the last axis, `w` is the weight table, a negative
  index counts from the end of the axis it indexes (jnp's indexing), and an index past the end is clamped
  (the gather's own rule). `logsig y = -softplus(-y)`, `softplus y = max(y, 0) + log1p(exp(-|y - 0|))`
  under a test `y - 0 ≠ y - 0` that never fires on the extended reals.
  The pieces are named so that the kernel's side can be compared with them one at a time.
-/
import proofs.«402227_j94489281195_3_alg».proof.Proof.Gen.ReferenceIdeal

noncomputable section

namespace Cert.ReferenceIdeal.RefValue

open Cert.ReferenceIdeal Cert.ReferenceIdeal.Gen Idealize.ShloMosaic

variable {F : FTy → Type} [FloatOps F]

/-- The scalar zero laid over the whole logits array. -/
def zeros3 : FVec F S4096x512x20 .f32 :=
  broadcastInDim S4096x512x20 ![] bcast_S_S4096x512x20 (constant S_ .f32 0x00000000#32)

/-- `softplus y = max(y, 0) + log1p(exp(-|y - 0|))`, behind the test `y - 0 ≠ y - 0` (which selects `y + 0`). -/
def softplusT (y : FVec F S4096x512x20 .f32) : FVec F S4096x512x20 .f32 :=
  select (cmpf .une (subf y zeros3) (subf y zeros3)) (addf y zeros3)
    (addf (maximumf y zeros3) (Host.log1p (Host.exp (Host.negf (Host.absf (subf y zeros3))))))

/-- `logsig x = -softplus(-x)`, elementwise over the logits array. -/
def logsigT (x : FVec F S4096x512x20 .f32) : FVec F S4096x512x20 .f32 :=
  Host.negf (softplusT (Host.negf x))

/-- The target vector: the first 4096 entries of the flattened concatenation of the two target arrays. -/
def idxT (pos neg : IVec S4096x512x10 32) : IVec S4096 32 :=
  extractStridedSlice S4096 ![0]
    (shapeCast S41943040
      (concatenate S4096x512x20 2 [⟨S4096x512x10, pos⟩, ⟨S4096x512x10, neg⟩] concatenates_S4096x512x10_S4096x512x10_S4096x512x20_d2)
      shapeCasts_S4096x512x20_S41943040)
    slices_S41943040_S4096_0

/-- jnp's reading of a negative index along an axis of extent `n`: `n` is added to it. -/
def wrapT (n : BitVec 32) (idx : IVec S4096 32) : IVec S4096 32 :=
  select (cmpi .slt idx (broadcastInDim S4096 ![] bcast_S_S4096 (constantI S_ 32 0#32)))
    (addi idx (broadcastInDim S4096 ![] bcast_S_S4096 (constantI S_ 32 n))) idx

/-- The weight factor: minus the weight table at the (wrapped, then clamped) target. -/
def weightT (cw : FVec F S10000 .f32) (idx : IVec S4096 32) : FVec F S4096 .f32 :=
  Host.negf (Host.gather gather_S10000_S4096x1_S4096_n_0_n_n_0_1_1 cw
    (broadcastInDim S4096x1 ![0] bcast_S4096_S4096x1_0 (wrapT 10000#32 idx)))

/-- The pairs (row, column) the reference gathers at: row `i` and the wrapped target of row `i`. -/
def pairsT (idx : IVec S4096 32) : IVec S4096x2 32 :=
  concatenate S4096x2 1
    [⟨S4096x1, broadcastInDim S4096x1 ![0] bcast_S4096_S4096x1_0 (wrapT 4096#32 (iotaInDim S4096 32 0))⟩,
     ⟨S4096x1, broadcastInDim S4096x1 ![0] bcast_S4096_S4096x1_0 (wrapT 10240#32 idx)⟩]
    concatenates_S4096x1_S4096x1_S4096x2_d1

/-- The selected log-sigmoid values: the matrix of `logsig` of the logits gathered at the pairs. -/
def diagT (x : FVec F S4096x512x20 .f32) (idx : IVec S4096 32) : FVec F S4096 .f32 :=
  Host.gather gather_S4096x10240_S4096x2_S4096_n_01_n_n_01_1_11
    (shapeCast S4096x10240 (logsigT x) shapeCasts_S4096x512x20_S4096x10240) (pairsT idx)

/-- The reference's result. -/
def refOut (x : FVec F S4096x512x20 .f32) (cw : FVec F S10000 .f32) (pos neg : IVec S4096x512x10 32) : FVec F S4096 .f32 :=
  mulf (weightT cw (idxT pos neg)) (diagT x (idxT pos neg))

end Cert.ReferenceIdeal.RefValue

end
-- ==== Proof.RefRun.lean ====
/-
  The reference's run. The reference's entry function calls `log_sigmoid`, which calls `softplus`; with both
  bodies written out at their call sites the entry function is one straight line of 50 operations: the negation
  of the logits, the fourteen operations of `softplus` on it, the negation of that, and then the entry function's own
  34 (the two reshapes, the targets' concatenation and its first 4096 entries, the three index wraps, the two
  gathers, the negated weight and the product). Every weakly fair execution of that line terminates, and the result
  buffer then holds `refOut` of the four argument arrays, which are unchanged.
-/
import proofs.«402227_j94489281195_3_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The entry function as one line of 50 operations: `log_sigmoid`'s negation, `softplus`'s fourteen operations over the
    buffers of that call, `log_sigmoid`'s closing negation, then the entry function's own 34. -/
abbrev ops : List (HloOp τ sig (Elt F)) :=
  [ TRef.unary (.of main_arg0 : TRef sig ⟨S4096x512x20, .f32⟩) main_call0.v0 Host.negf,
    TRef.nullary main_call0.call0.cst (constant S_ .f32 0x00000000#32),
    TRef.unary main_call0.call0.cst main_call0.call0.v0 (broadcastInDim S4096x512x20 ![] bcast_S_S4096x512x20),
    TRef.binary main_call0.v0 main_call0.call0.v0 main_call0.call0.v1 maximumf,
    TRef.unary main_call0.call0.cst main_call0.call0.v2 (broadcastInDim S4096x512x20 ![] bcast_S_S4096x512x20),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S4096x512x20 ![] bcast_S_S4096x512x20),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    reshape main_v0 main_v1 rfl shapeCasts_S4096x512x20_S4096x10240,
    binary main_arg2 main_arg3 main_v2 ((fun a b => concatenate S4096x512x20 2 [⟨S4096x512x10, a⟩, ⟨S4096x512x10, b⟩] concatenates_S4096x512x10_S4096x512x10_S4096x512x20_d2) : (⟨S4096x512x10, .i32⟩ : BufTy).Contents (Elt F) → (⟨S4096x512x10, .i32⟩ : BufTy).Contents (Elt F) → (⟨S4096x512x20, .i32⟩ : BufTy).Contents (Elt F)),
    reshape main_v2 main_v3 rfl shapeCasts_S4096x512x20_S41943040,
    unary main_v3 main_v4 ((extractStridedSlice S4096 ![0] · slices_S41943040_S4096_0) : (⟨S41943040, .i32⟩ : BufTy).Contents (Elt F) → (⟨S4096, .i32⟩ : BufTy).Contents (Elt F)),
    nullary main_v5 (iotaInDim S4096 32 0),
    nullary main_c (constantI S_ 32 0#32),
    unary main_c main_v6 (broadcastInDim S4096 ![] bcast_S_S4096 : (⟨S_, .i32⟩ : BufTy).Contents (Elt F) → (⟨S4096, .i32⟩ : BufTy).Contents (Elt F)),
    binary main_v5 main_v6 main_v7 (cmpi .slt : (⟨S4096, .i32⟩ : BufTy).Contents (Elt F) → (⟨S4096, .i32⟩ : BufTy).Contents (Elt F) → (⟨S4096, .i1⟩ : BufTy).Contents (Elt F)),
    nullary main_c_0 (constantI S_ 32 4096#32),
    unary main_c_0 main_v8 (broadcastInDim S4096 ![] bcast_S_S4096 : (⟨S_, .i32⟩ : BufTy).Contents (Elt F) → (⟨S4096, .i32⟩ : BufTy).Contents (Elt F)),
    binary main_v5 main_v8 main_v9 (addi : (⟨S4096, .i32⟩ : BufTy).Contents (Elt F) → (⟨S4096, .i32⟩ : BufTy).Contents (Elt F) → (⟨S4096, .i32⟩ : BufTy).Contents (Elt F)),
    ternary main_v7 main_v9 main_v5 main_v10 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_1 (constantI S_ 32 0#32),
    unary main_c_1 main_v11 (broadcastInDim S4096 ![] bcast_S_S4096 : (⟨S_, .i32⟩ : BufTy).Contents (Elt F) → (⟨S4096, .i32⟩ : BufTy).Contents (Elt F)),
    binary main_v4 main_v11 main_v12 (cmpi .slt : (⟨S4096, .i32⟩ : BufTy).Contents (Elt F) → (⟨S4096, .i32⟩ : BufTy).Contents (Elt F) → (⟨S4096, .i1⟩ : BufTy).Contents (Elt F)),
    nullary main_c_2 (constantI S_ 32 10240#32),
    unary main_c_2 main_v13 (broadcastInDim S4096 ![] bcast_S_S4096 : (⟨S_, .i32⟩ : BufTy).Contents (Elt F) → (⟨S4096, .i32⟩ : BufTy).Contents (Elt F)),
    binary main_v4 main_v13 main_v14 (addi : (⟨S4096, .i32⟩ : BufTy).Contents (Elt F) → (⟨S4096, .i32⟩ : BufTy).Contents (Elt F) → (⟨S4096, .i32⟩ : BufTy).Contents (Elt F)),
    ternary main_v12 main_v14 main_v4 main_v15 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v10 main_v16 (broadcastInDim S4096x1 ![0] bcast_S4096_S4096x1_0 : (⟨S4096, .i32⟩ : BufTy).Contents (Elt F) → (⟨S4096x1, .i32⟩ : BufTy).Contents (Elt F)),
    unary main_v15 main_v17 (broadcastInDim S4096x1 ![0] bcast_S4096_S4096x1_0 : (⟨S4096, .i32⟩ : BufTy).Contents (Elt F) → (⟨S4096x1, .i32⟩ : BufTy).Contents (Elt F)),
    binary main_v16 main_v17 main_v18 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v1 main_v18 main_v19 ((fun x i => Host.gather gather_S4096x10240_S4096x2_S4096_n_01_n_n_01_1_11 x i) : (⟨S4096x10240, .f32⟩ : BufTy).Contents (Elt F) → (⟨S4096x2, .i32⟩ : BufTy).Contents (Elt F) → (⟨S4096, .f32⟩ : BufTy).Contents (Elt F)),
    nullary main_c_3 (constantI S_ 32 0#32),
    unary main_c_3 main_v20 (broadcastInDim S4096 ![] bcast_S_S4096 : (⟨S_, .i32⟩ : BufTy).Contents (Elt F) → (⟨S4096, .i32⟩ : BufTy).Contents (Elt F)),
    binary main_v4 main_v20 main_v21 (cmpi .slt : (⟨S4096, .i32⟩ : BufTy).Contents (Elt F) → (⟨S4096, .i32⟩ : BufTy).Contents (Elt F) → (⟨S4096, .i1⟩ : BufTy).Contents (Elt F)),
    nullary main_c_4 (constantI S_ 32 10000#32),
    unary main_c_4 main_v22 (broadcastInDim S4096 ![] bcast_S_S4096 : (⟨S_, .i32⟩ : BufTy).Contents (Elt F) → (⟨S4096, .i32⟩ : BufTy).Contents (Elt F)),
    binary main_v4 main_v22 main_v23 (addi : (⟨S4096, .i32⟩ : BufTy).Contents (Elt F) → (⟨S4096, .i32⟩ : BufTy).Contents (Elt F) → (⟨S4096, .i32⟩ : BufTy).Contents (Elt F)),
    ternary main_v21 main_v23 main_v4 main_v24 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v24 main_v25 (broadcastInDim S4096x1 ![0] bcast_S4096_S4096x1_0 : (⟨S4096, .i32⟩ : BufTy).Contents (Elt F) → (⟨S4096x1, .i32⟩ : BufTy).Contents (Elt F)),
    binary main_arg1 main_v25 main_v26 ((fun x i => Host.gather gather_S10000_S4096x1_S4096_n_0_n_n_0_1_1 x i) : (⟨S10000, .f32⟩ : BufTy).Contents (Elt F) → (⟨S4096x1, .i32⟩ : BufTy).Contents (Elt F) → (⟨S4096, .f32⟩ : BufTy).Contents (Elt F)),
    unary main_v26 main_v27 (Host.negf : (⟨S4096, .f32⟩ : BufTy).Contents (Elt F) → (⟨S4096, .f32⟩ : BufTy).Contents (Elt F)),
    binary main_v27 main_v19 main_v28 (mulf : (⟨S4096, .f32⟩ : BufTy).Contents (Elt F) → (⟨S4096, .f32⟩ : BufTy).Contents (Elt F) → (⟨S4096, .f32⟩ : BufTy).Contents (Elt F)) ]

set_option maxRecDepth 2048 in
/-- The entry function is that line: the two functions' bodies unfolded at their calls, sequencing reassociated. -/
theorem main_eq (c : Dev nD) : main (F := F) c = seq ops := by
  simp only [main, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub .., reshape_bufs_sub .., binary_bufs_sub ..,
    reshape_bufs_sub .., unary_bufs_sub .., nullary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub ..⟩

attribute [local irreducible] Host.gather concatenate shapeCast extractStridedSlice in
set_option maxHeartbeats 1000000 in
set_option maxRecDepth 4096 in
/-- The line's fold at the result buffer is `refOut` of the contents of the four argument buffers. Each operation's
    result at its own buffer is its function's value on its operands' contents, and at any other buffer what was there
    before; unfolding the line this way, first everywhere outside the operand lists of the two concatenations and then
    inside them, leaves the composed term, which is `refOut` with its named pieces unfolded: the typed references'
    transports are the identity at literal buffers, and a reshape's `fun i => shapeCast … i` is `shapeCast …`. The
    gathers, the concatenations, the reshapes and the slice stay folded: the equation never looks inside them. -/
theorem out_eq (V : Valuation τ sig (Elt F)) :
    after ops V (main_v28 : DevRef τ sig)
      = refOut (V (main_arg0 : DevRef τ sig)) (V (main_arg1 : DevRef τ sig)) (V (main_arg2 : DevRef τ sig))
          (V (main_arg3 : DevRef τ sig)) := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- No operation of the line writes an argument buffer. -/
theorem arg0_eq (V : Valuation τ sig (Elt F)) :
    after ops V (main_arg0 : DevRef τ sig) = V (main_arg0 : DevRef τ sig) := by
  after_results_simp
theorem arg1_eq (V : Valuation τ sig (Elt F)) :
    after ops V (main_arg1 : DevRef τ sig) = V (main_arg1 : DevRef τ sig) := by
  after_results_simp
theorem arg2_eq (V : Valuation τ sig (Elt F)) :
    after ops V (main_arg2 : DevRef τ sig) = V (main_arg2 : DevRef τ sig) := by
  after_results_simp
theorem arg3_eq (V : Valuation τ sig (Elt F)) :
    after ops V (main_arg3 : DevRef τ sig) = V (main_arg3 : DevRef τ sig) := by
  after_results_simp

/-- every weakly fair execution of the reference terminates with its result at refOut of the arguments, the arguments unchanged -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.RefValue

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.LogSig.lean ====
/-
  The log-sigmoid on the extended reals, in the one form both programs' computations reduce to:
      logsig a = -( max(-a, 0) + log1p( exp( -max(-a, a) ) ) ),
  that is `-softplus(-a)` with `softplus y = max(y, 0) + log1p(exp(-|y|))` and `|y| = max(y, -y)`.
-/
import Idealize.ShloMosaic.PureOps.Ideal

noncomputable section

namespace Cert.LogSig

open Idealize.ShloMosaic

/-- `logsig a = -(max(-a, 0) + log1p(exp(-max(-a, a))))`. -/
def logsig (a : EReal) : EReal :=
  -(max (-a) 0 + Ideal.log1p (Ideal.exp (-(max (-a) a))))

/-- A test `d ≠ d` never fires: there is no unordered value among the extended reals. -/
theorem cmp_one_self (d : EReal) : Ideal.cmp .one d d = 0#1 := by
  simp [Ideal.cmp]

theorem cmp_une_self (d : EReal) : Ideal.cmp .une d d = 0#1 := by
  simp [Ideal.cmp]

end Cert.LogSig

end
-- ==== Proof.OneHot.lean ====
/-
  Selecting one entry of a row by a sum of masked lanes.

  A row of 10240 extended reals is scanned in five chunks of 2048 lanes. Lane `c` carries the column word `c`
  (as a 32-bit word) and contributes the row's entry `c` when that word equals the target word `t`, and zero
  otherwise. When `t` denotes a column (`t < 10240` as an unsigned word) exactly one lane of exactly one chunk
  matches, every other lane adds zero, and zero is neutral for the sum of extended reals whatever the entry is;
  so the chunk sums, added up from zero, give the row's entry at `t`.
-/
import Idealize.ShloMosaic.PureOps.Ideal
import Idealize.ShloMosaic.Lib.StableHlo.Predicate
import Idealize.ShloMosaic.Lib.ValueIdx

noncomputable section

open scoped BigOperators

namespace Cert.OneHot

open Idealize.ShloMosaic Idealize.ShloMosaic.StableHlo.Predicate Idealize.ShloMosaic.ValueIdx

/-- A lane's column word equals the target word exactly when the lane's column is the target's value. -/
theorem word_eq_iff (c : Nat) (hc : c < 10240) (t : BitVec 32) :
    IntOp.cmpi .eq (BitVec.ofNat 32 c) t = 1#1 ↔ c = t.toNat := by
  rw [cmpi_eq_iff]
  constructor
  · intro h; rw [← h]; simp only [BitVec.toNat_ofNat]; omega
  · intro h; apply BitVec.eq_of_toNat_eq; simp only [BitVec.toNat_ofNat]; omega

/-- One chunk's masked sum: the row's entry at the target if the target lies in the chunk, zero otherwise. -/
theorem chunk (row : Fin 10240 → EReal) (t : BitVec 32) (ht : t.toNat < 10240) (off : Nat) (hoff : off + 2048 ≤ 10240) :
    (∑ l : Fin 2048, Scalar.select (IntOp.cmpi .eq (BitVec.ofNat 32 (off + l.val)) t) (row ⟨off + l.val, by omega⟩) (0 : EReal))
      = if off ≤ t.toNat ∧ t.toNat < off + 2048 then row ⟨t.toNat, ht⟩ else 0 := by
  by_cases hin : off ≤ t.toNat ∧ t.toNat < off + 2048
  · rw [if_pos hin]
    rw [Finset.sum_eq_single (⟨t.toNat - off, by omega⟩ : Fin 2048)]
    · have e : IntOp.cmpi .eq (BitVec.ofNat 32 (off + (t.toNat - off))) t = 1#1 :=
        (word_eq_iff _ (by omega) t).mpr (by omega)
      show Scalar.select (IntOp.cmpi .eq (BitVec.ofNat 32 (off + (t.toNat - off))) t) (row ⟨off + (t.toNat - off), _⟩) 0 = _
      rw [e, select_one]
      exact congrArg row (Fin.ext (by show off + (t.toNat - off) = t.toNat; omega))
    · intro l _ hl
      have e : ¬ IntOp.cmpi .eq (BitVec.ofNat 32 (off + l.val)) t = 1#1 := by
        rw [word_eq_iff _ (by have := l.isLt; omega) t]
        intro h
        exact hl (Fin.ext (by show l.val = t.toNat - off; omega))
      rw [eq_zero_of_ne_one e, select_zero]
    · intro h; exact absurd (Finset.mem_univ _) h
  · rw [if_neg hin]
    refine Finset.sum_eq_zero fun l _ => ?_
    have e : ¬ IntOp.cmpi .eq (BitVec.ofNat 32 (off + l.val)) t = 1#1 := by
      rw [word_eq_iff _ (by have := l.isLt; omega) t]
      intro h
      have := l.isLt
      exact hin ⟨by omega, by omega⟩
    rw [eq_zero_of_ne_one e, select_zero]

/-- The five chunk sums added up from zero: the row's entry at the target. -/
theorem row_select (row : Fin 10240 → EReal) (t : BitVec 32) (ht : t.toNat < 10240) (c0 c1 c2 c3 c4 : EReal)
    (h0 : c0 = if 0 ≤ t.toNat ∧ t.toNat < 0 + 2048 then row ⟨t.toNat, ht⟩ else 0)
    (h1 : c1 = if 2048 ≤ t.toNat ∧ t.toNat < 2048 + 2048 then row ⟨t.toNat, ht⟩ else 0)
    (h2 : c2 = if 4096 ≤ t.toNat ∧ t.toNat < 4096 + 2048 then row ⟨t.toNat, ht⟩ else 0)
    (h3 : c3 = if 6144 ≤ t.toNat ∧ t.toNat < 6144 + 2048 then row ⟨t.toNat, ht⟩ else 0)
    (h4 : c4 = if 8192 ≤ t.toNat ∧ t.toNat < 8192 + 2048 then row ⟨t.toNat, ht⟩ else 0) :
    ((((0 + c0) + c1) + c2) + c3) + c4 = row ⟨t.toNat, ht⟩ := by
  subst h0 h1 h2 h3 h4
  split_ifs <;> first | (exfalso; omega) | simp

end Cert.OneHot

end
-- ==== Proof.KerBody.lean ====
/-
  What the kernel's body leaves in one row of its output block.

  The body scans a 256 × 10240 block of logits in five chunks of 2048 lanes. For row `p` it compares, lane by lane,
  the chunk's column words with the row's target word, keeps the logit where they are equal and zero elsewhere, sums
  the lanes, and adds the five chunk sums up from zero; the log-sigmoid of that sum — `0 - softplus(0 - s)` with
  `softplus y = max(y, 0) + log1p(exp(0 - |y - 0|))` behind a test `y - 0 ≠ y - 0` that never fires on the extended
  reals — is the row's output. When the column words are the columns `0 … 10239` themselves and the target word
  denotes a column, exactly one lane matches, so the sum is the logit at that column (zero is neutral for the sum
  of extended reals, whatever the logit is) and the output is its log-sigmoid.
-/
import proofs.«402227_j94489281195_3_alg».proof.Proof.Gen.KernelIdeal.Frame
import proofs.«402227_j94489281195_3_alg».proof.Proof.LibRowCasts
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import proofs.«402227_j94489281195_3_alg».proof.Proof.LogSig
import proofs.«402227_j94489281195_3_alg».proof.Proof.OneHot

noncomputable section

namespace Cert.KernelIdeal.KerBody

open Cert.KernelIdeal Cert.KernelIdeal.Gen Idealize.ShloMosaic Idealize.ShloMosaic.ValueIdx Idealize.ShloMosaic.RowCasts

theorem lift_row (p : Fin 256) (k : Fin 2048) :
    Shape.Reduces.lift (s := S256x2048) (t := S256) (a := (1 : Fin 2)) reduces_S256x2048_S256 (ix1 p) k = ix2 p k := by
  funext c
  match c with
  | ⟨0, _⟩ => exact Fin.ext rfl
  | ⟨1, _⟩ => exact Fin.ext rfl

theorem rowSum_apply (src : FVec Ideal S256x2048 .f32) (p : Fin 256) :
    shapeCast S256x1 (multiReduction .add [1] S256 src 0x00000000#32 reduces_S256x2048_S256 (.inl rfl) rfl) shapeCasts_S256_S256x1 (ix2 p (0 : Fin 1))
      = ∑ l : Fin 2048, src (ix2 p l) := by
  refine (shapeCast_column_apply _ shapeCasts_S256_S256x1 p 0).trans ?_
  refine (Ideal.multiReduction_add_single src 0x00000000#32 reduces_S256x2048_S256 (.inl rfl) rfl (ix1 p)).trans ?_
  exact Finset.sum_congr rfl fun l _ => congrArg src (lift_row p l)

/-- A load of the logits block through the chunk rectangle at lane offset `off`: lane `l` of row `p` is the block's
    entry `(p, off + l)`. -/
theorem ld_x (x0 : Vec Ideal S256x10240 .f32) (off : Nat) (hoff : off + 2048 ≤ 10240)
    (inb : ∀ a, (![0, off] : Fin 2 → Nat) a + S256x2048.size a ≤ S256x10240.size a) (p : Fin 256) (l : Fin 2048) :
    View.ld x0 (Rect.unit (s := S256x10240) ![0, off] S256x2048.size inb) (ix2 p l) = x0 (ix2 p ⟨off + l.val, by omega⟩) := by
  show x0 ((Rect.unit (s := S256x10240) ![0, off] S256x2048.size inb).emb (ix2 p l)) = _
  congr 1
  funext a
  match a with
  | ⟨0, _⟩ => exact Fin.ext (by show 0 + 1 * p.val = p.val; omega)
  | ⟨1, _⟩ => exact Fin.ext (by show off + 1 * l.val = off + l.val; omega)

/-- The same for the row of column words. -/
theorem ld_c (x2 : Vec Ideal S1x10240 .i32) (off : Nat) (hoff : off + 2048 ≤ 10240)
    (inb : ∀ a, (![0, off] : Fin 2 → Nat) a + S1x2048.size a ≤ S1x10240.size a) (l : Fin 2048) :
    View.ld x2 (Rect.unit (s := S1x10240) ![0, off] S1x2048.size inb) (ix2 (0 : Fin 1) l) = x2 (ix2 (0 : Fin 1) ⟨off + l.val, by omega⟩) := by
  show x2 ((Rect.unit (s := S1x10240) ![0, off] S1x2048.size inb).emb (ix2 (0 : Fin 1) l)) = _
  congr 1
  funext a
  match a with
  | ⟨0, _⟩ => exact Fin.ext (by show 0 + 1 * 0 = 0; omega)
  | ⟨1, _⟩ => exact Fin.ext (by show off + 1 * l.val = off + l.val; omega)

/-- One chunk's masked lanes read at `(p, l)`: the chunk's entry where the lane's column word is the row's target word. -/
theorem masked_apply (xc : Vec Ideal S256x2048 .f32) (cc : Vec Ideal S1x2048 .i32) (v1 : IVec S256x1 32) (z : EReal) (p : Fin 256) (l : Fin 2048) :
    select (cmpi .eq (broadcastTo S256x2048 (shapeCast S1x2048 cc shapeCasts_S1x2048_S1x2048) broadcasts_S1x2048_S256x2048)
        (broadcastTo S256x2048 v1 broadcasts_S256x1_S256x2048))
      (shapeCast S256x2048 xc shapeCasts_S256x2048_S256x2048) (broadcast S256x2048 z) (ix2 p l)
      = Scalar.select (IntOp.cmpi .eq (cc (ix2 (0 : Fin 1) l)) (v1 (ix2 p (0 : Fin 1)))) (xc (ix2 p l)) z := by
  rw [shapeCast_self, shapeCast_self]
  show Scalar.select (IntOp.cmpi .eq (broadcastTo S256x2048 cc broadcasts_S1x2048_S256x2048 (ix2 p l))
      (broadcastTo S256x2048 v1 broadcasts_S256x1_S256x2048 (ix2 p l))) (xc (ix2 p l)) z = _
  rw [broadcastTo_1b_ab_apply, broadcastTo_column_apply]

theorem log1p_apply {s : Shape} {φ : FTy} (v : FVec Ideal s φ) (i : s.Idx) : log1p v i = FloatOps.log1p (v i) := rfl
theorem exp_apply {s : Shape} {φ : FTy} (v : FVec Ideal s φ) (i : s.Idx) : exp v i = FloatOps.exp (v i) := rfl
theorem absf_apply {s : Shape} {φ : FTy} (v : FVec Ideal s φ) (i : s.Idx) : absf v i = FloatOps.absf (v i) := rfl

/-- The same without the identity casts. -/
theorem masked_apply' (xc : Vec Ideal S256x2048 .f32) (cc : Vec Ideal S1x2048 .i32) (v1 : IVec S256x1 32) (z : EReal) (p : Fin 256) (l : Fin 2048) :
    select (cmpi .eq (broadcastTo S256x2048 cc broadcasts_S1x2048_S256x2048)
        (broadcastTo S256x2048 v1 broadcasts_S256x1_S256x2048)) xc (broadcast S256x2048 z) (ix2 p l)
      = Scalar.select (IntOp.cmpi .eq (cc (ix2 (0 : Fin 1) l)) (v1 (ix2 p (0 : Fin 1)))) (xc (ix2 p l)) z := by
  show Scalar.select (IntOp.cmpi .eq (broadcastTo S256x2048 cc broadcasts_S1x2048_S256x2048 (ix2 p l))
      (broadcastTo S256x2048 v1 broadcasts_S256x1_S256x2048 (ix2 p l))) (xc (ix2 p l)) z = _
  rw [broadcastTo_1b_ab_apply, broadcastTo_column_apply]

/-- One chunk's masked sum for row `p`. -/
def chunkSum (v0 : Vec Ideal S256x1 .i32) (a : Vec Ideal S256x2048 .f32) (c : Vec Ideal S1x2048 .i32) (p : Fin 256) : EReal :=
  ∑ l : Fin 2048, Scalar.select (IntOp.cmpi .eq (c (ix2 (0 : Fin 1) l)) (v0 (ix2 p (0 : Fin 1)))) (a (ix2 p l)) 0

theorem chunk_eq (v0 : Vec Ideal S256x1 .i32) (a : Vec Ideal S256x2048 .f32) (c : Vec Ideal S1x2048 .i32) (p : Fin 256) :
    (∑ x : Fin 2048, select (cmpi .eq (broadcastTo S256x2048 c broadcasts_S1x2048_S256x2048)
        (broadcastTo S256x2048 v0 broadcasts_S256x1_S256x2048)) a (broadcast S256x2048 (0 : EReal)) (ix2 p x)) = chunkSum v0 a c p :=
  Finset.sum_congr rfl (fun l _ => masked_apply' a c v0 0 p l)

set_option maxHeartbeats 400000 in
theorem pay4_apply (v0 : Vec Ideal S256x1 .i32) (a0 a1 a2 a3 a4 : Vec Ideal S256x2048 .f32) (c0 c1 c2 c3 c4 : Vec Ideal S1x2048 .i32) (p : Fin 256) :
    k0_pay4 (F := Ideal) (k0_pay1 v0) (k0_pay2 v0 a0 c0 a1 c1) (k0_pay3 v0 a2 c2) a3 c3 a4 c4 (ix2 p (0 : Fin 1))
      = Cert.LogSig.logsig (((((0 + chunkSum v0 a0 c0 p) + chunkSum v0 a1 c1 p) + chunkSum v0 a2 c2 p) + chunkSum v0 a3 c3 p) + chunkSum v0 a4 c4 p) := by
  unfold k0_pay4 k0_pay2 k0_pay3 k0_pay1
  simp only [log1p_apply, exp_apply, absf_apply, subf_apply, addf_apply, maximumf_apply, select_apply, cmpf_apply, broadcast_apply, shapeCast_self]
  rw [rowSum_apply, rowSum_apply, rowSum_apply, rowSum_apply, rowSum_apply]
  simp only [Ideal.ofBits_def, Ideal.ofBits_zero_f32]
  rw [chunk_eq v0 a0 c0 p, chunk_eq v0 a1 c1 p, chunk_eq v0 a2 c2 p, chunk_eq v0 a3 c3 p, chunk_eq v0 a4 c4 p]
  show _ = Cert.LogSig.logsig (((((0 + chunkSum v0 a0 c0 p) + chunkSum v0 a1 c1 p) + chunkSum v0 a2 c2 p) + chunkSum v0 a3 c3 p) + chunkSum v0 a4 c4 p)
  generalize (((((0 + chunkSum v0 a0 c0 p) + chunkSum v0 a1 c1 p) + chunkSum v0 a2 c2 p) + chunkSum v0 a3 c3 p) + chunkSum v0 a4 c4 p) = a
  simp only [Ideal.cmpf_def, Cert.LogSig.cmp_one_self, select_zero, Ideal.absf_def, Ideal.exp_def, Ideal.log1p_def, zero_sub, sub_zero, neg_neg]
  rfl

/-- One chunk's masked sum when the column words are the columns themselves and the row's target word denotes a
    column: the block's entry at the target if the target lies in the chunk, zero otherwise. -/
theorem chunk_val (x0 : Vec Ideal S256x10240 .f32) (x1 : Vec Ideal S256x1 .i32) (x2 : Vec Ideal S1x10240 .i32)
    (h1 : ∀ p : Fin 256, (x1 (ix2 p (0 : Fin 1))).toNat < 10240)
    (h2 : ∀ q : Fin 10240, x2 (ix2 (0 : Fin 1) q) = BitVec.ofNat 32 q.val) (p : Fin 256)
    (off : Nat) (hoff : off + 2048 ≤ 10240)
    (inbx : ∀ a, (![0, off] : Fin 2 → Nat) a + S256x2048.size a ≤ S256x10240.size a)
    (inbc : ∀ a, (![0, off] : Fin 2 → Nat) a + S1x2048.size a ≤ S1x10240.size a) :
    chunkSum x1 (View.ld x0 (Rect.unit (s := S256x10240) ![0, off] S256x2048.size inbx))
        (View.ld x2 (Rect.unit (s := S1x10240) ![0, off] S1x2048.size inbc)) p
      = if off ≤ (x1 (ix2 p (0 : Fin 1))).toNat ∧ (x1 (ix2 p (0 : Fin 1))).toNat < off + 2048
          then x0 (ix2 p ⟨(x1 (ix2 p (0 : Fin 1))).toNat, h1 p⟩) else 0 := by
  unfold chunkSum
  refine (Finset.sum_congr rfl fun l _ => ?_).trans
    (Cert.OneHot.chunk (fun q => x0 (ix2 p q)) (x1 (ix2 p (0 : Fin 1))) (h1 p) off hoff)
  rw [ld_x x0 off hoff inbx p l, ld_c x2 off hoff inbc l, h2]

theorem hz : (![0, 0] : Fin 2 → Nat) = fun _ => 0 := funext fun a => by fin_cases a <;> rfl

/-- WHAT THE BODY LEAVES in row `p` of its output block, when the third operand's block holds the column indices and
    the second's entry for the row denotes a column: the log-sigmoid of the first operand's entry at that column. -/
theorem out0_3_apply (x0 : Vec Ideal S256x10240 .f32) (x1 : Vec Ideal S256x1 .i32) (x2 : Vec Ideal S1x10240 .i32)
    (h1 : ∀ p : Fin 256, (x1 (ix2 p (0 : Fin 1))).toNat < 10240)
    (h2 : ∀ q : Fin 10240, x2 (ix2 (0 : Fin 1) q) = BitVec.ofNat 32 q.val) (p : Fin 256) :
    out0_3 x0 x1 x2 (ix2 p (0 : Fin 1))
      = Cert.LogSig.logsig (x0 (ix2 p ⟨(x1 (ix2 p (0 : Fin 1))).toNat, h1 p⟩)) := by
  unfold out0_3
  rw [View.canon_unit_zero hz]
  simp only [View.ld_unit_zero (S := S256x1) hz]
  refine (pay4_apply x1 (View.ld x0 r0_1) (View.ld x0 r0_3) (View.ld x0 r0_5) (View.ld x0 r0_7) (View.ld x0 r0_9)
    (View.ld x2 r0_2) (View.ld x2 r0_4) (View.ld x2 r0_6) (View.ld x2 r0_8) (View.ld x2 r0_10) p).trans ?_
  refine congrArg Cert.LogSig.logsig ?_
  exact Cert.OneHot.row_select (fun q => x0 (ix2 p q)) (x1 (ix2 p (0 : Fin 1))) (h1 p) _ _ _ _ _
    (chunk_val x0 x1 x2 h1 h2 p 0 (by omega) _ _)
    (chunk_val x0 x1 x2 h1 h2 p 2048 (by omega) _ _)
    (chunk_val x0 x1 x2 h1 h2 p 4096 (by omega) _ _)
    (chunk_val x0 x1 x2 h1 h2 p 6144 (by omega) _ _)
    (chunk_val x0 x1 x2 h1 h2 p 8192 (by omega) _ _)

end Cert.KernelIdeal.KerBody

end
-- ==== Proof.KerBlocks.lean ====
/-
  From blocks to the array, for the kernel program's one launch.

  The launch runs over a grid of sixteen points. At point `t` the logits matrix (4096 × 10240) and the column of targets
  (4096 × 1) are seen through blocks of 256 rows at block index `(t, 0)`; the row of column indices (1 × 10240) is seen
  whole at every point; the output column (4096 × 1) is written back in blocks of 256 rows at `(t, 0)`. A block's
  coordinate under the array is always block index × block extent + the coordinate inside the block, so row `p` of point
  `t`'s blocks is row `256 t + p` of the arrays. The body leaves in row `p` of its output block the log-sigmoid of the
  logits block's entry at the column the targets block names for that row; read through the blocks this is the same
  statement about row `256 t + p` of the arrays. The sixteen blocks tile the output column (row `r` lies in block
  `r / 256`) and every point writes its block back, so after the run the whole column holds, row by row, that value.
-/
import proofs.«402227_j94489281195_3_alg».proof.Proof.Gen.KernelIdeal.Frame
import proofs.«402227_j94489281195_3_alg».proof.Proof.KerBody
import Idealize.ShloMosaic.Lib.Pipeline.Value
import Idealize.ShloMosaic.Lib.ValueIdx

noncomputable section

namespace Cert.KernelIdeal.KerBlocks

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The printed index maps, decided once over the grid: at point `t` the two row-blocked inputs and the output sit at block
    `(t, 0)`, the row of column indices at block `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the logits' block at point `t` is row `256 t + p` of the matrix. -/
theorem blk0_apply (c : Dev nD) (t : Fin cfg0.N) (p : Fin 256) (q : Fin 10240) (r : Fin 4096) (hr : r.val = 256 * t.val + p.val) :
    (iblk m c 0 t : Vec Ideal S256x10240 .f32) (ix2 p q) = (V m c main_v6 : FVec Ideal S4096x10240 .f32) (ix2 r q) := by
  obtain ⟨e0, e1, -⟩ := idx_facts t
  unfold iblk
  rw [View.read_apply]
  show V m c main_v6 _ = V m c main_v6 _
  congr 1
  funext a
  apply Fin.ext
  match a with
  | ⟨0, _⟩ => show win0_0.index t 0 * 256 + 1 * p.val = r.val; rw [e0, hr]; omega
  | ⟨1, _⟩ => show win0_0.index t 1 * 10240 + 1 * q.val = q.val; rw [e1]; omega

/-- Row `p` of the targets' block at point `t` is row `256 t + p` of the column. -/
theorem blk1_apply (c : Dev nD) (t : Fin cfg0.N) (p : Fin 256) (r : Fin 4096) (hr : r.val = 256 * t.val + p.val) :
    (iblk m c 1 t : Vec Ideal S256x1 .i32) (ix2 p (0 : Fin 1)) = (V m c main_v7 : IVec S4096x1 32) (ix2 r (0 : Fin 1)) := by
  obtain ⟨-, -, e0, e1, -⟩ := idx_facts t
  unfold iblk
  rw [View.read_apply]
  show V m c main_v7 _ = V m c main_v7 _
  congr 1
  funext a
  apply Fin.ext
  match a with
  | ⟨0, _⟩ => show win0_1.index t 0 * 256 + 1 * p.val = r.val; rw [e0, hr]; omega
  | ⟨1, _⟩ => show win0_1.index t 1 * 1 + 1 * 0 = 0; rw [e1]

/-- The column indices' block at any point is the whole row. -/
theorem blk2_apply (c : Dev nD) (t : Fin cfg0.N) (q : Fin 10240) :
    (iblk m c 2 t : Vec Ideal S1x10240 .i32) (ix2 (0 : Fin 1) q) = (V m c main_v9 : IVec S1x10240 32) (ix2 (0 : Fin 1) q) := by
  obtain ⟨-, -, -, -, e0, e1, -⟩ := idx_facts t
  unfold iblk
  rw [View.read_apply]
  show V m c main_v9 _ = V m c main_v9 _
  congr 1
  funext a
  apply Fin.ext
  match a with
  | ⟨0, _⟩ => show win0_2.index t 0 * 1 + 1 * 0 = 0; rw [e0]
  | ⟨1, _⟩ => show win0_2.index t 1 * 10240 + 1 * q.val = q.val; rw [e1]; omega

/-- Row `r`'s value: the log-sigmoid of the matrix's entry in row `r` at the column the column operand names for that row. -/
def rowVal (X : FVec Ideal S4096x10240 .f32) (T : IVec S4096x1 32)
    (hT : ∀ r : Fin 4096, (T (ix2 r (0 : Fin 1))).toNat < 10240) (r : Fin 4096) : EReal :=
  Cert.LogSig.logsig (X (ix2 r ⟨(T (ix2 r (0 : Fin 1))).toNat, hT r⟩))

/-- The whole output column: row by row, `rowVal`. -/
def colVal (X : FVec Ideal S4096x10240 .f32) (T : IVec S4096x1 32)
    (hT : ∀ r : Fin 4096, (T (ix2 r (0 : Fin 1))).toNat < 10240) : FVec Ideal S4096x1 .f32 :=
  fun j => rowVal X T hT ⟨(j 0).val, idx2_lt0 j⟩

/-- The column at an index whose row is `r`. -/
theorem colVal_apply (X : FVec Ideal S4096x10240 .f32) (T : IVec S4096x1 32)
    (hT : ∀ r : Fin 4096, (T (ix2 r (0 : Fin 1))).toNat < 10240) (j : (⟨2, ![4096, 1]⟩ : Shape).Idx) (r : Fin 4096)
    (hj : (j 0).val = r.val) : colVal X T hT j = rowVal X T hT r := by
  unfold colVal
  congr 1
  exact Fin.ext hj

/-- An index of a one-column block is its row and column 0. -/
theorem col_idx {n : Nat} (y : (⟨2, ![n, 1]⟩ : Shape).Idx) : y = ix2 (y 0) (0 : Fin 1) := by
  funext a
  match a with
  | ⟨0, _⟩ => rfl
  | ⟨1, _⟩ =>
    apply Fin.ext
    have h : (y 1).val < 1 := (y 1).isLt
    show (y 1).val = 0
    omega

/-- WHAT POINT `t` WRITES BACK is block `t` of the column `colVal` of the matrix and the targets as the launch finds them:
    the body's row value read through the blocks, row `p` of the blocks being row `256 t + p` of the arrays. -/
theorem flushed_eq (c : Dev nD)
    (hI : ∀ r : Fin 4096, ((V m c main_v7 : IVec S4096x1 32) (ix2 r (0 : Fin 1))).toNat < 10240)
    (hC : ∀ q : Fin 10240, (V m c main_v9 : IVec S1x10240 32) (ix2 (0 : Fin 1) q) = BitVec.ofNat 32 q.val)
    (t : Fin cfg0.N) :
    (dats m 0 c).flushed 3 t = ((cfg0.win 3).blk t).view.read (Elt Ideal) (colVal (V m c main_v6) (V m c main_v7) hI) := by
  have hN : cfg0.N = 16 := N_0
  have ht := t.isLt
  obtain ⟨-, -, -, -, -, -, e0, e1⟩ := idx_facts t
  show (cfg0.win 3).cut (grid0.coords t) ((dats m 0 c).after 3 t) = _
  rw [after0_3]
  have key : ∀ p : Fin 256, out0_3 (iblk m c 0 t) (iblk m c 1 t) (iblk m c 2 t) (ix2 p (0 : Fin 1))
      = colVal (V m c main_v6) (V m c main_v7) hI (((cfg0.win 3).blk t).view.emb (ix2 p (0 : Fin 1))) := by
    intro p
    have hr : 256 * t.val + p.val < 4096 := by have := p.isLt; omega
    have h1 : ∀ p' : Fin 256, ((iblk m c 1 t : Vec Ideal S256x1 .i32) (ix2 p' (0 : Fin 1))).toNat < 10240 := fun p' => by
      have hr' : 256 * t.val + p'.val < 4096 := by have := p'.isLt; omega
      rw [blk1_apply m c t p' ⟨256 * t.val + p'.val, hr'⟩ rfl]
      exact hI _
    have h2 : ∀ q : Fin 10240, (iblk m c 2 t : Vec Ideal S1x10240 .i32) (ix2 (0 : Fin 1) q) = BitVec.ofNat 32 q.val := fun q => by
      rw [blk2_apply m c t q]
      exact hC q
    refine (KerBody.out0_3_apply (iblk m c 0 t) (iblk m c 1 t) (iblk m c 2 t) h1 h2 p).trans ?_
    refine Eq.trans ?_ (colVal_apply (V m c main_v6) (V m c main_v7) hI (((cfg0.win 3).blk t).view.emb (ix2 p (0 : Fin 1)))
      ⟨256 * t.val + p.val, hr⟩ ?_).symm
    · unfold rowVal
      refine (congrArg Cert.LogSig.logsig (blk0_apply m c t p _ ⟨256 * t.val + p.val, hr⟩ rfl)).trans ?_
      have eq : (⟨((iblk m c 1 t : Vec Ideal S256x1 .i32) (ix2 p (0 : Fin 1))).toNat, h1 p⟩ : Fin 10240)
          = ⟨((V m c main_v7 : IVec S4096x1 32) (ix2 (⟨256 * t.val + p.val, hr⟩ : Fin 4096) (0 : Fin 1))).toNat, hI _⟩ :=
        Fin.ext (congrArg BitVec.toNat (blk1_apply m c t p ⟨256 * t.val + p.val, hr⟩ rfl))
      rw [eq]
    · show win0_3.index t 0 * 256 + 1 * p.val = 256 * t.val + p.val
      rw [e0]; omega
  funext y
  have ey := col_idx (n := 256) y
  rw [ey]
  exact key (y 0)

/-- An index of the output array is in point `t`'s block iff each coordinate is in the block's range on its axis. -/
theorem mem_blk (t : Fin cfg0.N) (i : S4096x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v10).slice (win0_3.rect t)).set ↔ _
  rw [View.set_slice_whole, Rect.mem_set_unit]
  exact Iff.rfl

/-- Every one of the sixteen row blocks of the output column is SOME point's. -/
theorem idx_onto : ∀ q : Fin 16, ∃ t : Fin cfg0.N, win0_3.index t (0 : Fin 2) = q.val ∧ win0_3.index t (1 : Fin 2) = 0 :=
  (by decide +kernel : ∀ q : Fin 16, ∃ t : Fin grid0.N, win0_3.index t (0 : Fin 2) = q.val ∧ win0_3.index t (1 : Fin 2) = 0)

/-- THE COVER: row `r` of the 4096 lies in block `r / 256`, which some point writes back. -/
theorem cover (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  obtain ⟨t, q0, q1⟩ := idx_onto ⟨(i 0).val / 256, by omega⟩
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; rw [q0]; show (i 0).val / 256 * 256 ≤ (i 0).val ∧ (i 0).val < (i 0).val / 256 * 256 + 256; omega
  | ⟨1, _⟩ => show win0_3.index t (1 : Fin 2) * 1 ≤ (i 1).val ∧ (i 1).val < win0_3.index t (1 : Fin 2) * 1 + 1; rw [q1]; omega

/-- The launch's output array after the run: row r holds the log-sigmoid of the matrix's entry (r, column named by the column operand's row r) — provided the column operand's entries denote columns and the row operand holds the column indices. -/
theorem final3 (c : Dev nD)
    (hI : ∀ r : Fin 4096, ((V m c main_v7 : IVec S4096x1 32) (ix2 r (0 : Fin 1))).toNat < 10240)
    (hC : ∀ q : Fin 10240, (V m c main_v9 : IVec S1x10240 32) (ix2 (0 : Fin 1) q) = BitVec.ofNat 32 q.val) :
    ((dats m 0 c).arrAt 3 cfg0.N : FVec Ideal S4096x1 .f32)
      = fun j => Cert.LogSig.logsig ((V m c main_v6 : FVec Ideal S4096x10240 .f32)
          (ix2 ⟨(j 0).val, idx2_lt0 j⟩ ⟨((V m c main_v7 : IVec S4096x1 32) (ix2 ⟨(j 0).val, idx2_lt0 j⟩ (0 : Fin 1))).toNat, hI _⟩)) :=
  (dats m 0 c).arrAt_eq_of_cover 3 (colVal (V m c main_v6) (V m c main_v7) hI) (fun t _ => flushed_eq m c hI hC t) cover

end Cert.KernelIdeal.KerBlocks

end
-- ==== Proof.LibGatherPairs.lean ====
/-
  A general read lemma: `stablehlo.gather` of a rank-2 operand at an [n × 2] table of (row, column) start-index pairs,
  read at one result position.
-/
import Idealize.ShloMosaic.Lib.ValueIdx

namespace Cert.LibGatherPairs

open Idealize.ShloMosaic Idealize.ShloMosaic.ValueIdx

/-- The start-indices index at which result position `p` reads component `c` of its start index is `(p, c)`: the result's
    one axis is its batch axis and reads the table's axis 0; the index vector lies along the table's axis 1. -/
theorem siIdx_pairs {R C n : Nat} (d : GatherDims ⟨2, ![R, C]⟩ ⟨2, ![n, 2]⟩ ⟨1, ![n]⟩) (hivd : d.indexVectorDim = 1)
    (p : Fin n) (c : Fin d.startIndexMap.length) (k : Fin 2) (hck : c.val = k.val) :
    d.siIdx (ix1 p) c = ix2 p k := by
  funext b
  match b with
  | ⟨0, _⟩ =>
    unfold GatherDims.siIdx
    rw [dif_neg (by rw [hivd]; simp)]
    unfold GatherDims.siCoord
    apply Fin.ext
    simp only [Fin.val_cast]
    have e : ∀ X : Fin 1, ((ix1 p : (⟨1, ![n]⟩ : Shape).Idx) X).val = p.val := fun X => by
      have hX : X = 0 := Subsingleton.elim _ _
      subst hX; rfl
    exact e _
  | ⟨1, _⟩ =>
    unfold GatherDims.siIdx
    rw [dif_pos (by rw [hivd])]
    apply Fin.ext
    exact hck

/-- THE PAIRED TAKE. jnp's `x[rows, cols]` over a rank-2 array prints as a `stablehlo.gather` whose start indices are the
    [n × 2] table of (row, column) pairs, whose two operand axes are both collapsed and both start-indexed (in order), with
    no offset or batching axes and the index vector on axis 1 (`hcoll` … `hivd`: the printed dimension numbers, each by
    `rfl`). Result position `p` reads the operand at pair `p`, each component read SIGNED and CLAMPED into its own axis
    (StableHLO's clamp): a negative component reads coordinate 0, one past the end reads the last. -/
theorem gather_pairs {α : Type} {R C n w : Nat} (d : GatherDims ⟨2, ![R, C]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![R, C]⟩ : Shape).Idx → α) (idx : IVec ⟨2, ![n, 2]⟩ w) (p : Fin n) (hR : 0 < R) (hC : 0 < C) :
    Host.gather d x idx (ix1 p)
      = x (ix2 ⟨min (idx (ix2 p (0 : Fin 2))).toInt.toNat (R - 1), by omega⟩
            ⟨min (idx (ix2 p (1 : Fin 2))).toInt.toNat (C - 1), by omega⟩) := by
  unfold Host.gather
  congr 1
  funext a
  have hb : ∀ a : Fin 2, a ∉ d.operandBatchingDims := fun a => by rw [hob]; exact List.not_mem_nil
  have hc : ∀ a : Fin 2, a ∈ d.collapsedSliceDims := fun a => by
    rw [hcoll]; match a with | ⟨0, _⟩ => simp | ⟨1, _⟩ => simp
  have hk : ∀ a : Fin 2, a ∉ d.sKept := fun a h => ((d.mem_sKept a).1 h).1 (hc a)
  have hm : ∀ a : Fin 2, a ∈ d.startIndexMap := fun a => by
    rw [hsim]; match a with | ⟨0, _⟩ => simp | ⟨1, _⟩ => simp
  have hsl : ∀ a : Fin 2, d.sliceSizes a = 1 := fun a => d.slice_collapsed a (hc a)
  match a with
  | ⟨0, _⟩ =>
    apply Fin.ext
    simp only [GatherDims.operandIdx, GatherDims.batchCoord_eq_zero _ _ _ (hb _), GatherDims.offCoord_eq_zero _ _ _ (hk _),
      Nat.add_zero, GatherDims.start, dif_pos (hm _)]
    show min (idx _).toInt.toNat (R - d.sliceSizes 0) = min (idx (ix2 p (0 : Fin 2))).toInt.toNat (R - 1)
    rw [hsl, siIdx_pairs d hivd p _ (0 : Fin 2) (by show List.idxOf (0 : Fin 2) d.startIndexMap = 0; rw [hsim]; simp)]
  | ⟨1, _⟩ =>
    apply Fin.ext
    simp only [GatherDims.operandIdx, GatherDims.batchCoord_eq_zero _ _ _ (hb _), GatherDims.offCoord_eq_zero _ _ _ (hk _),
      Nat.add_zero, GatherDims.start, dif_pos (hm _)]
    show min (idx _).toInt.toNat (C - d.sliceSizes 1) = min (idx (ix2 p (1 : Fin 2))).toInt.toNat (C - 1)
    rw [hsl, siIdx_pairs d hivd p _ (1 : Fin 2) (by show List.idxOf (1 : Fin 2) d.startIndexMap = 1; rw [hsim]; simp)]

end Cert.LibGatherPairs
-- ==== Proof.RefDiag.lean ====
/-
  The reference's selected value read at a row, on the extended reals.

  The reference lays the elementwise log-sigmoid of the logits out as a 4096 × 10240 matrix and gathers it at the pairs
  (row i, target of row i), each component first wrapped (a negative index has the axis extent added) and then clamped
  into its axis. When the target word of row i is a vocabulary id (below 10000 unsigned) nothing wraps and nothing
  clamps: the row component is i itself, the column component the target itself, and the value read is the log-sigmoid
  of the logits matrix at (i, target).
-/
import proofs.«402227_j94489281195_3_alg».proof.Proof.RefTerm
import proofs.«402227_j94489281195_3_alg».proof.Proof.LogSig
import proofs.«402227_j94489281195_3_alg».proof.Proof.LibGatherPairs
import Idealize.ShloMosaic.Lib.ValueIdx
import Idealize.ShloMosaic.Lib.Pipeline.Value
import Idealize.ShloMosaic.Lib.StableHlo.Predicate
import Idealize.ShloMosaic.PureOps.Ideal.Laws

noncomputable section

namespace Cert.ReferenceIdeal.RefDiag

open Cert.ReferenceIdeal Cert.ReferenceIdeal.Gen Cert.ReferenceIdeal.RefValue Idealize.ShloMosaic Idealize.ShloMosaic.ValueIdx
open Idealize.ShloMosaic.StableHlo

/-- the reference's elementwise log-sigmoid is logsig of the entry -/
theorem logsigT_apply (x : FVec Ideal S4096x512x20 .f32) (j : S4096x512x20.Idx) :
    logsigT (F := Ideal) x j = Cert.LogSig.logsig (x j) := by
  unfold logsigT softplusT zeros3 Cert.LogSig.logsig
  simp only [Host.negf, Host.absf, Host.exp, Host.log1p, select, cmpf, subf, addf, maximumf, broadcastInDim, constant,
    Ideal.hostNegf_def, Ideal.negf_def, Ideal.hostAbsf_def, Ideal.absf_def, Ideal.subf_def, Ideal.addf_def,
    Ideal.maximumf_def, Ideal.hostUnary_exp_def, Ideal.hostUnary_log1p_def, Ideal.cmpf_def, Ideal.ofBits_def,
    Ideal.ofBits_zero_f32, sub_zero, add_zero, neg_neg, Cert.LogSig.cmp_une_self, ValueIdx.select_zero]

/-- Rank-2 indices with equal coordinates are equal. -/
theorem ix2_congr {n0 n1 : Nat} {a a' : Fin n0} {b b' : Fin n1} (ha : a.val = a'.val) (hb : b.val = b'.val) :
    ix2 a b = ix2 a' b' := by
  rw [Fin.ext ha, Fin.ext hb]

/-- The rank-1 index at coordinate i, in its two spellings. -/
theorem ofFin_eq_ix1 {n : Nat} (i : Fin n) : Shape.Idx.ofFin i = ix1 i := by
  funext a
  match a with
  | ⟨0, _⟩ => exact Fin.ext rfl

/-- A word below 2³¹ unsigned is not negative as a signed word. -/
theorem slt_zero_of_lt (w : BitVec 32) (hw : w.toNat < 2 ^ 31) : IntOp.cmpi .slt w 0#32 = 0#1 := by
  refine eq_zero_of_ne_one fun h => ?_
  rw [IntOp.cmpi_slt, Predicate.toInt_eq_toNat_of_lt hw] at h
  have e0 : (0#32 : BitVec 32).toInt = 0 := by decide
  rw [e0] at h
  omega

/-- A non-negative index is not wrapped. -/
theorem wrapT_of_lt (n : BitVec 32) (v : IVec S4096 32) (k : S4096.Idx) (hk : (v k).toNat < 2 ^ 31) :
    wrapT n v k = v k := by
  unfold wrapT
  simp only [select, cmpi, addi, broadcastInDim, constantI]
  rw [slt_zero_of_lt _ hk]
  exact select_zero _ _

/-- A word below 2³¹ read signed, then as a natural number, is its unsigned value. -/
theorem toInt_toNat_of_lt (w : BitVec 32) (hw : w.toNat < 2 ^ 31) : w.toInt.toNat = w.toNat := by
  rw [Predicate.toInt_eq_toNat_of_lt hw]
  exact Int.toNat_natCast _

/-- The row component of pair i is the word i. -/
theorem pairsT_row (idx : IVec S4096 32) (i : Fin 4096) : pairsT idx (ix2 i (0 : Fin 2)) = BitVec.ofNat 32 i.val := by
  unfold pairsT
  refine (concatenate_pair_apply_left (t := S4096x2) (s₁ := S4096x1) (s₂ := S4096x1) (1 : Fin 2) _ _ concatenates_S4096x1_S4096x1_S4096x2_d1 (ix2 i (0 : Fin 2)) rfl
    (Predicate.ixP i) (fun b => by match b with | ⟨0, _⟩ => rfl | ⟨1, _⟩ => rfl)).trans ?_
  refine (Predicate.bcast_col1 bcast_S4096_S4096x1_0 _ i).trans ?_
  have hi : (BitVec.ofNat 32 i.val).toNat < 2 ^ 31 := by
    have := i.isLt
    simp only [BitVec.toNat_ofNat]
    omega
  exact wrapT_of_lt _ _ _ hi

/-- The column component of pair i is the target word of row i, when that word is not negative. -/
theorem pairsT_col (idx : IVec S4096 32) (i : Fin 4096) (h : (idx (ix1 i)).toNat < 2 ^ 31) :
    pairsT idx (ix2 i (1 : Fin 2)) = idx (ix1 i) := by
  unfold pairsT
  refine (concatenate_pair_apply_right (t := S4096x2) (s₁ := S4096x1) (s₂ := S4096x1) (1 : Fin 2) _ _ concatenates_S4096x1_S4096x1_S4096x2_d1 (ix2 i (1 : Fin 2)) rfl rfl
    (Predicate.ixP i) (fun b hb => by match b, hb with | ⟨0, _⟩, _ => rfl | ⟨1, _⟩, hb => exact absurd rfl hb) rfl).trans ?_
  refine (Predicate.bcast_col1 bcast_S4096_S4096x1_0 _ i).trans ?_
  rw [ofFin_eq_ix1]
  exact wrapT_of_lt _ _ _ h

/-- Row i of the reference's selected values, when the row's target word t = idx (ix1 i) is a vocabulary id
    (t.toNat < 10000, so it is non-negative as a signed word, below both extents 10000 and 10240, and neither wrapped
    nor clamped): logsig of the logits matrix at (i, t). -/
theorem diagT_apply (x : FVec Ideal S4096x512x20 .f32) (idx : IVec S4096 32) (i : Fin 4096) (h : (idx (ix1 i)).toNat < 10000) :
    diagT (F := Ideal) x idx (ix1 i)
      = Cert.LogSig.logsig (shapeCast S4096x10240 x shapeCasts_S4096x512x20_S4096x10240 (ix2 i ⟨(idx (ix1 i)).toNat, by omega⟩)) := by
  unfold diagT
  refine (Cert.LibGatherPairs.gather_pairs gather_S4096x10240_S4096x2_S4096_n_01_n_n_01_1_11 rfl rfl rfl rfl _ (pairsT idx) i
    (by decide) (by decide)).trans ?_
  have ht : (idx (ix1 i)).toNat < 2 ^ 31 := by omega
  have hi31 : (BitVec.ofNat 32 i.val).toNat < 2 ^ 31 := by
    have := i.isLt
    simp only [BitVec.toNat_ofNat]
    omega
  have e0 : min (pairsT idx (ix2 i (0 : Fin 2))).toInt.toNat (4096 - 1) = i.val := by
    rw [pairsT_row, toInt_toNat_of_lt _ hi31]
    have := i.isLt
    simp only [BitVec.toNat_ofNat]
    omega
  have e1 : min (pairsT idx (ix2 i (1 : Fin 2))).toInt.toNat (10240 - 1) = (idx (ix1 i)).toNat := by
    rw [pairsT_col idx i ht, toInt_toNat_of_lt _ ht]
    omega
  exact (congrArg (shapeCast S4096x10240 (logsigT (F := Ideal) x) shapeCasts_S4096x512x20_S4096x10240) (ix2_congr e0 e1)).trans
    (logsigT_apply x _)

end Cert.ReferenceIdeal.RefDiag

end
-- ==== Proof.IdxRead.lean ====
/-
  The target vector read at a row, on both programs' sides.

  Both programs take the first 4096 entries of the row-major flattening of the concatenation, along the last axis, of two
  integer arrays of shape 4096 × 512 × 10; one flattens the whole concatenation, the other only its first batch. Entry
  `i` is the same on both sides: batch 0, position `i / 20`, slot `i % 20` of the first array when the slot is below 10,
  slot `i % 20 - 10` of the second otherwise.
-/
import Idealize.ShloMosaic.Lib.ValueIdx
import Idealize.ShloMosaic.Lib.Pipeline.Value
import proofs.«402227_j94489281195_3_alg».proof.Proof.RefTerm
import proofs.«402227_j94489281195_3_alg».proof.Proof.KerTerm

namespace Cert.IdxRead

open Idealize.ShloMosaic Idealize.ShloMosaic.ValueIdx

/-- entry i of the flattened concatenation: batch 0, position i / 20, slot i % 20 of the first array when the slot is below 10, slot i % 20 - 10 of the second otherwise -/
def tgt (pos neg : IVec (⟨3, ![4096, 512, 10]⟩ : Shape) 32) (i : Fin 4096) : BitVec 32 :=
  if h : i.val % 20 < 10 then pos (ix3 (0 : Fin 4096) ⟨i.val / 20, by omega⟩ ⟨i.val % 20, h⟩)
  else neg (ix3 (0 : Fin 4096) ⟨i.val / 20, by omega⟩ ⟨i.val % 20 - 10, by omega⟩)

/-- The whole concatenation, flattened and cut to its first 4096 entries, read at `i`: since `i < 4096 < 512 · 20`, the
    row-major position `i` lies in batch 0, at position `i / 20` and slot `i % 20` of the concatenated last axis. -/
theorem idxT_apply (pos neg : IVec Cert.ReferenceIdeal.S4096x512x10 32) (i : Fin 4096) :
    Cert.ReferenceIdeal.RefValue.idxT pos neg (ix1 i) = tgt pos neg i := by
  have hi := i.isLt
  unfold Cert.ReferenceIdeal.RefValue.idxT
  refine (extractStridedSlice_apply _ _ _ (ix1 i) (ix1 (⟨i.val, by omega⟩ : Fin 41943040)) ?_).trans ?_
  · intro a
    match a with
    | ⟨0, _⟩ => show i.val = 0 + i.val; omega
  refine (shapeCast_apply _ _ (ix1 (⟨i.val, by omega⟩ : Fin 41943040))
    (ix3 (0 : Fin 4096) (⟨i.val / 20, by omega⟩ : Fin 512) (⟨i.val % 20, by omega⟩ : Fin 20)) ?_).trans ?_
  · rw [Shape.rowMajor_val_one, Shape.rowMajor_val_three]
    show (0 * 512 + i.val / 20) * 20 + i.val % 20 = i.val
    omega
  unfold tgt
  by_cases h : i.val % 20 < 10
  · rw [dif_pos h]
    refine concatenate_pair_apply_left (t := Cert.ReferenceIdeal.S4096x512x20) (s₁ := Cert.ReferenceIdeal.S4096x512x10)
      (s₂ := Cert.ReferenceIdeal.S4096x512x10) (2 : Fin 3) pos neg _ _ rfl _ ?_
    intro b
    match b with
    | ⟨0, _⟩ => rfl
    | ⟨1, _⟩ => rfl
    | ⟨2, _⟩ => rfl
  · rw [dif_neg h]
    refine concatenate_pair_apply_right (t := Cert.ReferenceIdeal.S4096x512x20) (s₁ := Cert.ReferenceIdeal.S4096x512x10)
      (s₂ := Cert.ReferenceIdeal.S4096x512x10) (2 : Fin 3) pos neg _ _ rfl rfl _ ?_ ?_
    · intro b hb
      match b, hb with
      | ⟨0, _⟩, _ => rfl
      | ⟨1, _⟩, _ => rfl
      | ⟨2, _⟩, hb => exact absurd rfl hb
    · show i.val % 20 - 10 + 10 = i.val % 20
      omega

/-- The first batch's concatenation, flattened and cut to its first 4096 entries, read at `i`: the same position and slot,
    and the first batch of either array is the array at batch 0. -/
theorem idxK_apply (pos neg : IVec Cert.KernelIdeal.S4096x512x10 32) (i : Fin 4096) :
    Cert.KernelIdeal.KerValue.idxK pos neg (ix1 i) = tgt pos neg i := by
  have hi := i.isLt
  unfold Cert.KernelIdeal.KerValue.idxK
  refine (extractStridedSlice_apply _ _ _ (ix1 i) (ix1 (⟨i.val, by omega⟩ : Fin 10240)) ?_).trans ?_
  · intro a
    match a with
    | ⟨0, _⟩ => show i.val = 0 + i.val; omega
  refine (shapeCast_apply _ _ (ix1 (⟨i.val, by omega⟩ : Fin 10240))
    (ix3 (0 : Fin 1) (⟨i.val / 20, by omega⟩ : Fin 512) (⟨i.val % 20, by omega⟩ : Fin 20)) ?_).trans ?_
  · rw [Shape.rowMajor_val_one, Shape.rowMajor_val_three]
    show (0 * 512 + i.val / 20) * 20 + i.val % 20 = i.val
    omega
  unfold tgt
  by_cases h : i.val % 20 < 10
  · rw [dif_pos h]
    refine (concatenate_pair_apply_left (t := Cert.KernelIdeal.S1x512x20) (s₁ := Cert.KernelIdeal.S1x512x10)
      (s₂ := Cert.KernelIdeal.S1x512x10) (2 : Fin 3) _ _ _ _ rfl
      (ix3 (0 : Fin 1) (⟨i.val / 20, by omega⟩ : Fin 512) (⟨i.val % 20, h⟩ : Fin 10)) ?_).trans ?_
    · intro b
      match b with
      | ⟨0, _⟩ => rfl
      | ⟨1, _⟩ => rfl
      | ⟨2, _⟩ => rfl
    refine extractStridedSlice_apply _ pos _ _ _ ?_
    intro a
    match a with
    | ⟨0, _⟩ => rfl
    | ⟨1, _⟩ => show i.val / 20 = 0 + i.val / 20; omega
    | ⟨2, _⟩ => show i.val % 20 = 0 + i.val % 20; omega
  · rw [dif_neg h]
    refine (concatenate_pair_apply_right (t := Cert.KernelIdeal.S1x512x20) (s₁ := Cert.KernelIdeal.S1x512x10)
      (s₂ := Cert.KernelIdeal.S1x512x10) (2 : Fin 3) _ _ _ _ rfl rfl
      (ix3 (0 : Fin 1) (⟨i.val / 20, by omega⟩ : Fin 512) (⟨i.val % 20 - 10, by omega⟩ : Fin 10)) ?_ ?_).trans ?_
    · intro b hb
      match b, hb with
      | ⟨0, _⟩, _ => rfl
      | ⟨1, _⟩, _ => rfl
      | ⟨2, _⟩, hb => exact absurd rfl hb
    · show i.val % 20 - 10 + 10 = i.val % 20
      omega
    refine extractStridedSlice_apply _ neg _ _ _ ?_
    intro a
    match a with
    | ⟨0, _⟩ => rfl
    | ⟨1, _⟩ => show i.val / 20 = 0 + i.val / 20; omega
    | ⟨2, _⟩ => show i.val % 20 - 10 = 0 + (i.val % 20 - 10); omega

/-- so every entry of the target vector is an entry of one of the two arrays -/
theorem tgt_mem (pos neg : IVec (⟨3, ![4096, 512, 10]⟩ : Shape) 32) (i : Fin 4096) :
    (∃ j, tgt pos neg i = pos j) ∨ (∃ j, tgt pos neg i = neg j) := by
  unfold tgt
  by_cases h : i.val % 20 < 10
  · rw [dif_pos h]; exact Or.inl ⟨_, rfl⟩
  · rw [dif_neg h]; exact Or.inr ⟨_, rfl⟩

end Cert.IdxRead
-- ==== Proof.PreDecode.lean ====
/-
  The printed precondition, decoded for its integer part. The precondition is a conjunction of four "all"s (a reduction
  by "and" over every axis, from the constant 1): the logits are finite, the class weights are finite, every positive
  target t satisfies 0 ≤ t < 10000 as a signed word, and every negative target does. Its value being 1 gives, through the
  last two conjuncts, that every target is below 10000 as an unsigned word: a signed word in [0, 10000) has its top bit
  clear, so it reads the same signed and unsigned.
-/
import proofs.«402227_j94489281195_3_alg».proof.Proof.Gen.Pre_finite_inputs
import Idealize.ShloMosaic.Lib.ReduceAll
import Idealize.ShloMosaic.Lib.StableHlo.Predicate
import Idealize.ShloMosaic.Lib.ValueIdx

namespace Cert.PreDecode

open Idealize.ShloMosaic Cert.Pre_finite_inputs

/-- The rank-0 shape has one index. -/
instance subsingleton_scalar_idx : Subsingleton S_.Idx := ⟨fun a b => funext fun d => d.elim0⟩

/-- A word in [0, 10000) signed is below 10000 unsigned. -/
theorem toNat_lt_of_signed_range (w : BitVec 32) (h0 : IntOp.cmpi .sge w 0#32 = 1#1)
    (h1 : IntOp.cmpi .slt w 10000#32 = 1#1) : w.toNat < 10000 := by
  rw [IntOp.cmpi_sge] at h0
  rw [IntOp.cmpi_slt] at h1
  have e0 : (0#32 : BitVec 32).toInt = 0 := by decide
  have e1 : (10000#32 : BitVec 32).toInt = 10000 := by decide
  rw [e0] at h0
  rw [e1] at h1
  rw [BitVec.toInt_eq_toNat_cond] at h0 h1
  have hw := w.isLt
  split at h0 <;> omega

/-- One entry of a range mask: the "and" of the two signed compares against the broadcast bounds being 1 puts the word
    below 10000 unsigned. -/
theorem entry_lt (t : IVec S4096x512x10 32) (j : S4096x512x10.Idx)
    (hb : S_.BroadcastsInDim S4096x512x10 (![] : Fin 0 → Fin S4096x512x10.rank))
    (e : andi (cmpi .sge t (broadcastInDim S4096x512x10 ![] hb (constantI S_ 32 0#32)))
          (cmpi .slt t (broadcastInDim S4096x512x10 ![] hb (constantI S_ 32 10000#32))) j = 1#1) :
    (t j).toNat < 10000 := by
  simp only [andi, cmpi, broadcastInDim, constantI] at e
  obtain ⟨h0, h1⟩ := IntOp.andi_eq_one.1 e
  exact toNat_lt_of_signed_range _ h0 h1

/-- Under the precondition every target is a vocabulary id: as an unsigned word it is below 10000 (hence also
    non-negative as a signed one). -/
theorem targets_lt {F : FTy → Type} [FloatOps F] (x : FVec F S4096x512x20 .f32) (cw : FVec F S10000 .f32)
    (pos neg : IVec S4096x512x10 32)
    (h : Cert.Pre_finite_inputs.fn (F := F) x cw pos neg = fun _ => 1#1) :
    (∀ j : S4096x512x10.Idx, (pos j).toNat < 10000) ∧ (∀ j : S4096x512x10.Idx, (neg j).toNat < 10000) := by
  have e := congrFun h ValueIdx.ix0
  unfold Cert.Pre_finite_inputs.fn Cert.Pre_finite_inputs.fn_part1 at e
  dsimp only at e
  -- the outer conjunctions, read at the one index of the result
  obtain ⟨e15, e21⟩ := IntOp.andi_eq_one.1 e
  obtain ⟨-, e14⟩ := IntOp.andi_eq_one.1 e15
  exact ⟨fun j => entry_lt pos j _ (Host.reduce_andi_all _ _ _ _ _ e14 j),
    fun j => entry_lt neg j _ (Host.reduce_andi_all _ _ _ _ _ e21 j)⟩

end Cert.PreDecode
-- ==== Proof.Bridge.lean ====
/-
  The two programs compute the same vector.

  Write `t i` for entry `i` of the row-major flattening of the two target arrays' concatenation along the last axis
  (`i < 4096`), `X` for the logits seen as a 4096 × 10240 matrix and `w` for the weight table. Under the
  precondition every target is a vocabulary id, `0 ≤ t i < 10000`; so `t i` is a column of `X`, the kernel program's
  clamp of it into `[0, 10239]` changes nothing, and the reference's reading of a negative index and the gather's
  clamp change nothing either. Then row `i` of the kernel's launch is `logsig (X (i, t i))` (one masked lane
  matches), the reference's gathered value is the same entry of the matrix of log-sigmoids, and both multiply it by
  the same weight factor, minus the table at the wrapped and clamped target.
-/
import proofs.«402227_j94489281195_3_alg».proof.Proof.KerRun
import proofs.«402227_j94489281195_3_alg».proof.Proof.KerBlocks
import proofs.«402227_j94489281195_3_alg».proof.Proof.RefRun
import proofs.«402227_j94489281195_3_alg».proof.Proof.RefDiag
import proofs.«402227_j94489281195_3_alg».proof.Proof.IdxRead
import proofs.«402227_j94489281195_3_alg».proof.Proof.PreDecode
import proofs.«402227_j94489281195_3_alg».proof.Proof.LogSig
import proofs.«402227_j94489281195_3_alg».proof.Proof.LibRowCasts
import Idealize.ShloMosaic.Lib.ValueLayout

noncomputable section

namespace Cert.Bridge

open Idealize.ShloMosaic Idealize.ShloMosaic.ValueIdx Idealize.ShloMosaic.TcCoe Idealize.SL.Sem
open Idealize.ShloMosaic.StableHlo.Predicate Idealize.ShloMosaic.RowCasts

/-- The clamp `min 10239 (max 0 w)` of a word that already denotes a column is the word. -/
theorem clip_eval (w : BitVec 32) (hw : w.toNat ≤ 10239) : IntOp.minsi 10239#32 (IntOp.maxsi 0#32 w) = w := by
  have hti : w.toInt = w.toNat := toInt_eq_toNat_of_lt (by omega)
  have h0 : (0#32 : BitVec 32).toInt = 0 := by decide
  have hh : (10239#32 : BitVec 32).toInt = 10239 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, hh, decide_eq_true_eq]
  omega

/-- The two programs' target vectors are one vector. -/
theorem idx_eq (pos neg : IVec (⟨3, ![4096, 512, 10]⟩ : Shape) 32) :
    Cert.KernelIdeal.KerValue.idxK pos neg = Cert.ReferenceIdeal.RefValue.idxT pos neg := by
  funext j
  rw [eq_ix1 j]
  exact (Cert.IdxRead.idxK_apply pos neg (j 0)).trans (Cert.IdxRead.idxT_apply pos neg (j 0)).symm

/-- Every entry of the target vector is a vocabulary id when every target is. -/
theorem tgt_lt (pos neg : IVec (⟨3, ![4096, 512, 10]⟩ : Shape) 32)
    (hp : ∀ j, (pos j).toNat < 10000) (hn : ∀ j, (neg j).toNat < 10000) (i : Fin 4096) :
    (Cert.IdxRead.tgt pos neg i).toNat < 10000 := by
  rcases Cert.IdxRead.tgt_mem pos neg i with ⟨j, e⟩ | ⟨j, e⟩
  · rw [e]; exact hp j
  · rw [e]; exact hn j

/-- A column read as a vector: entry `i` is the column's entry `(i, 0)`. -/
theorem shapeCast_column_vec_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## The kernel program's side -/

namespace Ker

open Cert.KernelIdeal Cert.KernelIdeal.Gen Cert.KernelIdeal.KerValue

variable (m : (ℓ : Loc nD τ sig) → Buf (Elt Ideal) ℓ)

/-- Row `r` of the launch's column operand is the target of row `r`: the clamp leaves a vocabulary id as it is. -/
theorem v7_apply (c : Dev nD)
    (hlt : ∀ i : Fin 4096, (Cert.IdxRead.tgt (m ((c : Thread nD τ).loc main_arg2)) (m ((c : Thread nD τ).loc main_arg3)) i).toNat < 10000)
    (r : Fin 4096) :
    (V m c main_v7 : IVec S4096x1 32) (ix2 r (0 : Fin 1))
      = Cert.IdxRead.tgt (m ((c : Thread nD τ).loc main_arg2)) (m ((c : Thread nD τ).loc main_arg3)) r := by
  rw [V_v7]
  refine (shapeCast_column_apply _ shapeCasts_S4096_S4096x1 r 0).trans ?_
  show IntOp.minsi 10239#32 (IntOp.maxsi 0#32
    (idxK (m ((c : Thread nD τ).loc main_arg2)) (m ((c : Thread nD τ).loc main_arg3)) (ix1 r))) = _
  rw [Cert.IdxRead.idxK_apply]
  exact clip_eval _ (by have := hlt r; omega)

/-- The launch's row operand holds the column indices. -/
theorem v9_apply (c : Dev nD) (q : Fin 10240) :
    (V m c main_v9 : IVec S1x10240 32) (ix2 (0 : Fin 1) q) = BitVec.ofNat 32 q.val := by
  rw [V_v9]
  exact (shapeCast_a_1a_apply _ shapeCasts_S10240_S1x10240 0 q).trans rfl

/-- ROW `i` OF THE LAUNCH'S OUTPUT: the log-sigmoid of the logits matrix at `(i, t i)`. -/
theorem launch_apply (c : Dev nD)
    (hlt : ∀ i : Fin 4096, (Cert.IdxRead.tgt (m ((c : Thread nD τ).loc main_arg2)) (m ((c : Thread nD τ).loc main_arg3)) i).toNat < 10000)
    (i : Fin 4096) :
    ((dats m 0 c).arrAt 3 cfg0.N : FVec Ideal S4096x1 .f32) (ix2 i (0 : Fin 1))
      = Cert.LogSig.logsig (shapeCast S4096x10240 (m ((c : Thread nD τ).loc main_arg0)) shapeCasts_S4096x512x20_S4096x10240
          (ix2 i ⟨(Cert.IdxRead.tgt (m ((c : Thread nD τ).loc main_arg2)) (m ((c : Thread nD τ).loc main_arg3)) i).toNat,
            by have := hlt i; omega⟩)) := by
  have hI : ∀ r : Fin 4096, ((V m c main_v7 : IVec S4096x1 32) (ix2 r (0 : Fin 1))).toNat < 10240 := fun r => by
    rw [v7_apply m c hlt r]; have := hlt r; omega
  refine (congrFun (Cert.KernelIdeal.KerBlocks.final3 m c hI (v9_apply m c)) (ix2 i (0 : Fin 1))).trans ?_
  refine congrArg Cert.LogSig.logsig ?_
  rw [V_v6]
  refine congrArg _ (Cert.ReferenceIdeal.RefDiag.ix2_congr rfl ?_)
  exact congrArg BitVec.toNat (v7_apply m c hlt i)

/-- ENTRY `i` OF THE KERNEL PROGRAM'S RESULT. -/
theorem out_apply (c : Dev nD)
    (hlt : ∀ i : Fin 4096, (Cert.IdxRead.tgt (m ((c : Thread nD τ).loc main_arg2)) (m ((c : Thread nD τ).loc main_arg3)) i).toNat < 10000)
    (i : Fin 4096) :
    kerOut (m ((c : Thread nD τ).loc main_arg1))
        (idxK (m ((c : Thread nD τ).loc main_arg2)) (m ((c : Thread nD τ).loc main_arg3)))
        ((dats m 0 c).arrAt 3 cfg0.N) (ix1 i)
      = weightK (F := Ideal) (m ((c : Thread nD τ).loc main_arg1))
          (idxK (m ((c : Thread nD τ).loc main_arg2)) (m ((c : Thread nD τ).loc main_arg3))) (ix1 i)
        * Cert.LogSig.logsig (shapeCast S4096x10240 (m ((c : Thread nD τ).loc main_arg0)) shapeCasts_S4096x512x20_S4096x10240
          (ix2 i ⟨(Cert.IdxRead.tgt (m ((c : Thread nD τ).loc main_arg2)) (m ((c : Thread nD τ).loc main_arg3)) i).toNat,
            by have := hlt i; omega⟩)) := by
  unfold kerOut
  refine (mulf_apply _ _ _).trans ?_
  rw [shapeCast_column_vec_apply]
  exact congrArg _ (launch_apply m c hlt i)

end Ker

/-! ## The reference's side -/

namespace Ref

open Cert.ReferenceIdeal Cert.ReferenceIdeal.Gen Cert.ReferenceIdeal.RefValue

/-- ENTRY `i` OF THE REFERENCE'S RESULT. -/
theorem out_apply (x : FVec Ideal S4096x512x20 .f32) (cw : FVec Ideal S10000 .f32) (pos neg : IVec S4096x512x10 32)
    (hlt : ∀ i : Fin 4096, (Cert.IdxRead.tgt pos neg i).toNat < 10000) (i : Fin 4096) :
    refOut (F := Ideal) x cw pos neg (ix1 i)
      = weightT (F := Ideal) cw (idxT pos neg) (ix1 i)
        * Cert.LogSig.logsig (shapeCast S4096x10240 x shapeCasts_S4096x512x20_S4096x10240
          (ix2 i ⟨(Cert.IdxRead.tgt pos neg i).toNat, by have := hlt i; omega⟩)) := by
  unfold refOut
  refine (mulf_apply _ _ _).trans ?_
  have e : idxT pos neg (ix1 i) = Cert.IdxRead.tgt pos neg i := Cert.IdxRead.idxT_apply pos neg i
  have h : (idxT pos neg (ix1 i)).toNat < 10000 := by rw [e]; exact hlt i
  rw [Cert.ReferenceIdeal.RefDiag.diagT_apply x (idxT pos neg) i h]
  refine congrArg (fun z => weightT cw (idxT pos neg) (ix1 i) * Cert.LogSig.logsig z) ?_
  exact congrArg _ (Cert.ReferenceIdeal.RefDiag.ix2_congr rfl (congrArg BitVec.toNat e))

end Ref

/-! ## The two results are one vector -/

open Cert.KernelIdeal.KerValue Cert.ReferenceIdeal.RefValue in
/-- The weight factors of the two programs are one function of the weight table and the target vector. -/
theorem weight_eq (cw : FVec Ideal (⟨1, ![10000]⟩ : Shape) .f32) (idx : IVec (⟨1, ![4096]⟩ : Shape) 32) :
    weightK (F := Ideal) cw idx = weightT (F := Ideal) cw idx := rfl

/-- UNDER THE PRECONDITION the kernel program's result is the reference's result of the same arguments. -/
theorem out_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) = fun _ => 1#1) :
    Cert.KernelIdeal.KerValue.kerOut
        (m ((c.tc : Thread Cert.KernelIdeal.nD Cert.KernelIdeal.τ).loc Cert.KernelIdeal.main_arg1))
        (Cert.KernelIdeal.KerValue.idxK
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)))
        ((Cert.KernelIdeal.Gen.dats m 0 c).arrAt 3 Cert.KernelIdeal.cfg0.N)
      = Cert.ReferenceIdeal.RefValue.refOut (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) := by
  obtain ⟨hp, hn⟩ := Cert.PreDecode.targets_lt _ _ _ _ hpre
  have hlt := tgt_lt _ _ hp hn
  funext j
  rw [eq_ix1 j]
  refine (Ker.out_apply m c hlt (j 0)).trans (Eq.trans ?_ (Ref.out_apply _ _ _ _ hlt (j 0)).symm)
  rw [idx_eq, weight_eq]

end Cert.Bridge

end
-- ==== Proof.lean ====
/-
  The certificate of the select-and-log-sigmoid kernel against its jnp reference.

  Both programs compute, for every row `i < 4096`,
      out i = -(w[t i]) · logsig(X[i, t i]),
  where `X` is the logits array seen as a 4096 × 10240 matrix, `w` the weight table and `t i` entry `i` of the
  row-major flattening of the two target arrays' concatenation along the last axis. The kernel program clamps `t i`
  into `[0, 10239]`, selects `X[i, ·]` at that column by a sum of masked lanes inside its one launch and applies the
  log-sigmoid to the selected value; the reference applies the log-sigmoid to every logit and gathers, reading a
  negative index from the end of the axis. The two agree where every target is a vocabulary id, `0 ≤ t < 10000`,
  which the precondition states: there the clamp, the wrap of a negative index and the gather's own clamp all leave
  `t i` as it is.
  The three frames: the two kernel programs' by their generated frame certificates, the reference's by its run with
  the result dropped. No operation was rewritten between the kernel program and its idealization.
-/
import proofs.«402227_j94489281195_3_alg».proof.Defs
import proofs.«402227_j94489281195_3_alg».proof.Proof.Gen.Kernel
import proofs.«402227_j94489281195_3_alg».proof.Proof.Gen.Kernel.Frame
import proofs.«402227_j94489281195_3_alg».proof.Proof.Gen.KernelIdeal
import proofs.«402227_j94489281195_3_alg».proof.Proof.Gen.KernelIdeal.Frame
import proofs.«402227_j94489281195_3_alg».proof.Proof.Gen.ReferenceIdeal
import proofs.«402227_j94489281195_3_alg».proof.Proof.Gen.Pre_finite_inputs
import proofs.«402227_j94489281195_3_alg».proof.Proof.KerRun
import proofs.«402227_j94489281195_3_alg».proof.Proof.RefRun
import proofs.«402227_j94489281195_3_alg».proof.Proof.Bridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- At the ideal values the kernel program ends at `kerOut` of its arguments and of the array its launch leaves, the
    reference at `refOut` of arguments that agree; under the precondition these are one vector. -/
theorem algebraic : Cert.algebraic_KernelIdeal_ReferenceIdeal := by
  intro m ρ m' ρ' hpre hagree
  refine ⟨_, Cert.KernelIdeal.KerValue.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]
  exact (Cert.Bridge.out_eq m c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
